-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50x25 : Shape := ⟨2, ![50, 25]⟩
abbrev S2x25 : Shape := ⟨2, ![2, 25]⟩
abbrev S3x25 : Shape := ⟨2, ![3, 25]⟩
abbrev S20x28 : Shape := ⟨2, ![20, 28]⟩
abbrev S128x128 : Shape := ⟨2, ![128, 128]⟩
abbrev S128 : Shape := ⟨1, ![128]⟩
abbrev S1048576 : Shape := ⟨1, ![1048576]⟩
abbrev S_ : Shape := ⟨0, ![]⟩

class Facts : Prop where
  bcast_S_S50x25 : S_.BroadcastsInDim S50x25 (![] : Fin 0 → Fin S50x25.rank)
  reducesTo_S50x25_S_d0_1 : S50x25.ReducesTo [0, 1] S_
  h_S_ : 0 < S_.numel
  bcast_S_S2x25 : S_.BroadcastsInDim S2x25 (![] : Fin 0 → Fin S2x25.rank)
  reducesTo_S2x25_S_d0_1 : S2x25.ReducesTo [0, 1] S_
  bcast_S_S3x25 : S_.BroadcastsInDim S3x25 (![] : Fin 0 → Fin S3x25.rank)
  reducesTo_S3x25_S_d0_1 : S3x25.ReducesTo [0, 1] S_
  bcast_S_S20x28 : S_.BroadcastsInDim S20x28 (![] : Fin 0 → Fin S20x28.rank)
  reducesTo_S20x28_S_d0_1 : S20x28.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1048576 : S_.BroadcastsInDim S1048576 (![] : Fin 0 → Fin S1048576.rank)
  reducesTo_S1048576_S_d0 : S1048576.ReducesTo [0] S_

variable [Facts]

def fn_part3 {F : FTy → Type} [FloatOps F] (main_arg11 : IVec S1048576 32) (main_v49 : IVec S_ 1) : IVec S_ 1 :=
  let main_c_20 : IVec S_ 32 := constantI S_ 32 0#32
  let main_v50 : IVec S1048576 32 := broadcastInDim S1048576 ![] bcast_S_S1048576 main_c_20
  let main_v51 : IVec S1048576 1 := cmpi .sge main_arg11 main_v50
  let main_c_21 : IVec S_ 1 := constantI S_ 1 1#1
  let main_v52 : IVec S_ 1 := (fun x v => Host.reduce IntOp.andi x v reducesTo_S1048576_S_d0 h_S_) main_v51 main_c_21
  let main_v53 : IVec S_ 1 := andi main_v49 main_v52
  main_v53

def fn_part2 {F : FTy → Type} [FloatOps F] (main_arg7 : IVec S1048576 32) (main_arg8 : IVec S1048576 32) (main_arg9 : IVec S1048576 32) (main_arg10 : IVec S1048576 32) (main_arg11 : IVec S1048576 32) (main_v33 : IVec S_ 1) : IVec S_ 1 :=
  let main_c_12 : IVec S_ 32 := constantI S_ 32 0#32
  let main_v34 : IVec S1048576 32 := broadcastInDim S1048576 ![] bcast_S_S1048576 main_c_12
  let main_v35 : IVec S1048576 1 := cmpi .sge main_arg7 main_v34
  let main_c_13 : IVec S_ 1 := constantI S_ 1 1#1
  let main_v36 : IVec S_ 1 := (fun x v => Host.reduce IntOp.andi x v reducesTo_S1048576_S_d0 h_S_) main_v35 main_c_13
  let main_v37 : IVec S_ 1 := andi main_v33 main_v36
  let main_c_14 : IVec S_ 32 := constantI S_ 32 0#32
  let main_v38 : IVec S1048576 32 := broadcastInDim S1048576 ![] bcast_S_S1048576 main_c_14
  let main_v39 : IVec S1048576 1 := cmpi .sge main_arg8 main_v38
  let main_c_15 : IVec S_ 1 := constantI S_ 1 1#1
  let main_v40 : IVec S_ 1 := (fun x v => Host.reduce IntOp.andi x v reducesTo_S1048576_S_d0 h_S_) main_v39 main_c_15
  let main_v41 : IVec S_ 1 := andi main_v37 main_v40
  let main_c_16 : IVec S_ 32 := constantI S_ 32 0#32
  let main_v42 : IVec S1048576 32 := broadcastInDim S1048576 ![] bcast_S_S1048576 main_c_16
  let main_v43 : IVec S1048576 1 := cmpi .sge main_arg9 main_v42
  let main_c_17 : IVec S_ 1 := constantI S_ 1 1#1
  let main_v44 : IVec S_ 1 := (fun x v => Host.reduce IntOp.andi x v reducesTo_S1048576_S_d0 h_S_) main_v43 main_c_17
  let main_v45 : IVec S_ 1 := andi main_v41 main_v44
  let main_c_18 : IVec S_ 32 := constantI S_ 32 0#32
  let main_v46 : IVec S1048576 32 := broadcastInDim S1048576 ![] bcast_S_S1048576 main_c_18
  let main_v47 : IVec S1048576 1 := cmpi .sge main_arg10 main_v46
  let main_c_19 : IVec S_ 1 := constantI S_ 1 1#1
  let main_v48 : IVec S_ 1 := (fun x v => Host.reduce IntOp.andi x v reducesTo_S1048576_S_d0 h_S_) main_v47 main_c_19
  let main_v49 : IVec S_ 1 := andi main_v45 main_v48
  fn_part3 (F := F) main_arg11 main_v49

def fn_part1 {F : FTy → Type} [FloatOps F] (main_arg4 : FVec F S20x28 .f32) (main_arg5 : FVec F S128x128 .f32) (main_arg6 : FVec F S128 .f32) (main_arg7 : IVec S1048576 32) (main_arg8 : IVec S1048576 32) (main_arg9 : IVec S1048576 32) (main_arg10 : IVec S1048576 32) (main_arg11 : IVec S1048576 32) (main_v13 : IVec S_ 1) (main_v16 : IVec S3x25 1) : IVec S_ 1 :=
  let main_c_5 : IVec S_ 1 := constantI S_ 1 1#1
  let main_v17 : IVec S_ 1 := (fun x v => Host.reduce IntOp.andi x v reducesTo_S3x25_S_d0_1 h_S_) main_v16 main_c_5
  let main_v18 : IVec S_ 1 := andi main_v13 main_v17
  let main_v19 : FVec F S20x28 .f32 := Host.absf main_arg4
  let main_cst_6 : FVec F S_ .f32 := constant S_ .f32 0x7F800000#32
  let main_v20 : FVec F S20x28 .f32 := broadcastInDim S20x28 ![] bcast_S_S20x28 main_cst_6
  let main_v21 : IVec S20x28 1 := cmpf .olt main_v19 main_v20
  let main_c_7 : IVec S_ 1 := constantI S_ 1 1#1
  let main_v22 : IVec S_ 1 := (fun x v => Host.reduce IntOp.andi x v reducesTo_S20x28_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50x25 .f32) (main_arg1 : FVec F S2x25 .f32) (main_arg2 : FVec F S2x25 .f32) (main_arg3 : FVec F S3x25 .f32) (main_arg4 : FVec F S20x28 .f32) (main_arg5 : FVec F S128x128 .f32) (main_arg6 : FVec F S128 .f32) (main_arg7 : IVec S1048576 32) (main_arg8 : IVec S1048576 32) (main_arg9 : IVec S1048576 32) (main_arg10 : IVec S1048576 32) (main_arg11 : IVec S1048576 32) : IVec S_ 1 :=
  let main_v0 : FVec F S50x25 .f32 := Host.absf main_arg0
  let main_cst : FVec F S_ .f32 := constant S_ .f32 0x7F800000#32
  let main_v1 : FVec F S50x25 .f32 := broadcastInDim S50x25 ![] bcast_S_S50x25 main_cst
  let main_v2 : IVec S50x25 1 := cmpf .olt main_v0 main_v1
  let main_c : IVec S_ 1 := constantI S_ 1 1#1
  let main_v3 : IVec S_ 1 := (fun x v => Host.reduce IntOp.andi x v reducesTo_S50x25_S_d0_1 h_S_) main_v2 main_c
  let main_v4 : FVec F S2x25 .f32 := Host.absf main_arg1
  let main_cst_0 : FVec F S_ .f32 := constant S_ .f32 0x7F800000#32
  let main_v5 : FVec F S2x25 .f32 := broadcastInDim S2x25 ![] bcast_S_S2x25 main_cst_0
  let main_v6 : IVec S2x25 1 := cmpf .olt main_v4 main_v5
  let main_c_1 : IVec S_ 1 := constantI S_ 1 1#1
  let main_v7 : IVec S_ 1 := (fun x v => Host.reduce IntOp.andi x v reducesTo_S2x25_S_d0_1 h_S_) main_v6 main_c_1
  let main_v8 : IVec S_ 1 := andi main_v3 main_v7
  let main_v9 : FVec F S2x25 .f32 := Host.absf main_arg2
  let main_cst_2 : FVec F S_ .f32 := constant S_ .f32 0x7F800000#32
  let main_v10 : FVec F S2x25 .f32 := broadcastInDim S2x25 ![] bcast_S_S2x25 main_cst_2
  let main_v11 : IVec S2x25 1 := cmpf .olt main_v9 main_v10
  let main_c_3 : IVec S_ 1 := constantI S_ 1 1#1
  let main_v12 : IVec S_ 1 := (fun x v => Host.reduce IntOp.andi x v reducesTo_S2x25_S_d0_1 h_S_) main_v11 main_c_3
  let main_v13 : IVec S_ 1 := andi main_v8 main_v12
  let main_v14 : FVec F S3x25 .f32 := Host.absf main_arg3
  let main_cst_4 : FVec F S_ .f32 := constant S_ .f32 0x7F800000#32
  let main_v15 : FVec F S3x25 .f32 := broadcastInDim S3x25 ![] bcast_S_S3x25 main_cst_4
  let main_v16 : IVec S3x25 1 := cmpf .olt main_v14 main_v15
  fn_part1 (F := F) main_arg4 main_arg5 main_arg6 main_arg7 main_arg8 main_arg9 main_arg10 main_arg11 main_v13 main_v16
-- ==== Kernel.lean ====
abbrev S50x25 : Shape := ⟨2, ![50, 25]⟩
abbrev S2x25 : Shape := ⟨2, ![2, 25]⟩
abbrev S3x25 : Shape := ⟨2, ![3, 25]⟩
abbrev S20x28 : Shape := ⟨2, ![20, 28]⟩
abbrev S128x128 : Shape := ⟨2, ![128, 128]⟩
abbrev S128 : Shape := ⟨1, ![128]⟩
abbrev S1048576 : Shape := ⟨1, ![1048576]⟩
abbrev S128x25 : Shape := ⟨2, ![128, 25]⟩
abbrev S128x28 : Shape := ⟨2, ![128, 28]⟩
abbrev S25x128 : Shape := ⟨2, ![25, 128]⟩
abbrev S50x128 : Shape := ⟨2, ![50, 128]⟩
abbrev S2x128 : Shape := ⟨2, ![2, 128]⟩
abbrev S3x128 : Shape := ⟨2, ![3, 128]⟩
abbrev S28x128 : Shape := ⟨2, ![28, 128]⟩
abbrev S20x128 : Shape := ⟨2, ![20, 128]⟩
abbrev S_ : Shape := ⟨0, ![]⟩
abbrev S1 : Shape := ⟨1, ![1]⟩
abbrev S1048576x128 : Shape := ⟨2, ![1048576, 128]⟩
abbrev S8192 : Shape := ⟨1, ![8192]⟩
abbrev S8192x128 : Shape := ⟨2, ![8192, 128]⟩
abbrev S8192x1 : Shape := ⟨2, ![8192, 1]⟩
abbrev S1x128 : Shape := ⟨2, ![1, 128]⟩

abbrev nBuf : Space → Nat
  | .hbm => 46
  | .vmem => 14
  | .smem => 0
  | _ => 0

abbrev bufTy : (tb : Table) → Fin (tcTables nBuf tb) → BufTy
  | .hbm, ⟨0, _⟩ => ⟨S50x25, .f32⟩
  | .hbm, ⟨1, _⟩ => ⟨S2x25, .f32⟩
  | .hbm, ⟨2, _⟩ => ⟨S2x25, .f32⟩
  | .hbm, ⟨3, _⟩ => ⟨S3x25, .f32⟩
  | .hbm, ⟨4, _⟩ => ⟨S20x28, .f32⟩
  | .hbm, ⟨5, _⟩ => ⟨S128x128, .f32⟩
  | .hbm, ⟨6, _⟩ => ⟨S128, .f32⟩
  | .hbm, ⟨7, _⟩ => ⟨S1048576, .i32⟩
  | .hbm, ⟨8, _⟩ => ⟨S1048576, .i32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S128x25, .f32⟩
  | .hbm, ⟨13, _⟩ => ⟨S128x25, .f32⟩
  | .hbm, ⟨14, _⟩ => ⟨S128x25, .f32⟩
  | .hbm, ⟨15, _⟩ => ⟨S128x25, .f32⟩
  | .hbm, ⟨16, _⟩ => ⟨S128x28, .f32⟩
  | .hbm, ⟨17, _⟩ => ⟨S25x128, .f32⟩
  | .hbm, ⟨18, _⟩ => ⟨S50x128, .f32⟩
  | .hbm, ⟨19, _⟩ => ⟨S25x128, .f32⟩
  | .hbm, ⟨20, _⟩ => ⟨S2x128, .f32⟩
  | .hbm, ⟨21, _⟩ => ⟨S25x128, .f32⟩
  | .hbm, ⟨22, _⟩ => ⟨S2x128, .f32⟩
  | .hbm, ⟨23, _⟩ => ⟨S25x128, .f32⟩
  | .hbm, ⟨24, _⟩ => ⟨S3x128, .f32⟩
  | .hbm, ⟨25, _⟩ => ⟨S28x128, .f32⟩
  | .hbm, ⟨26, _⟩ => ⟨S20x128, .f32⟩
  | .hbm, ⟨27, _⟩ => ⟨S_, .f32⟩
  | .hbm, ⟨28, _⟩ => ⟨S128x128, .f32⟩
  | .hbm, ⟨29, _⟩ => ⟨S_, .i32⟩
  | .hbm, ⟨30, _⟩ => ⟨S1, .i32⟩
  | .hbm, ⟨31, _⟩ => ⟨S128x128, .f32⟩
  | .hbm, ⟨32, _⟩ => ⟨S_, .i32⟩
  | .hbm, ⟨33, _⟩ => ⟨S1, .i32⟩
  | .hbm, ⟨34, _⟩ => ⟨S128x128, .f32⟩
  | .hbm, ⟨35, _⟩ => ⟨S_, .i32⟩
  | .hbm, ⟨36, _⟩ => ⟨S1, .i32⟩
  | .hbm, ⟨37, _⟩ => ⟨S128x128, .f32⟩
  | .hbm, ⟨38, _⟩ => ⟨S_, .i32⟩
  | .hbm, ⟨39, _⟩ => ⟨S1, .i32⟩
  | .hbm, ⟨40, _⟩ => ⟨S128x128, .f32⟩
  | .hbm, ⟨41, _⟩ => ⟨S_, .i32⟩
  | .hbm, ⟨42, _⟩ => ⟨S1, .i32⟩
  | .hbm, ⟨43, _⟩ => ⟨S128x128, .f32⟩
  | .hbm, ⟨44, _⟩ => ⟨S128x128, .bf16⟩
  | .hbm, ⟨45, _⟩ => ⟨S1048576x128, .f32⟩
  | .local _ .vmem, ⟨0, _⟩ => ⟨S8192, .i32⟩
  | .local _ .vmem, ⟨1, _⟩ => ⟨S8192, .i32⟩
  | .local _ .vmem, ⟨2, _⟩ => ⟨S8192, .i32⟩
  | .local _ .vmem, ⟨3, _⟩ => ⟨S8192, .i32⟩
  | .local _ .vmem, ⟨4, _⟩ => ⟨S8192, .i32⟩
  | .local _ .vmem, ⟨5, _⟩ => ⟨S8192, .i32⟩
  | .local _ .vmem, ⟨6, _⟩ => ⟨S8192, .i32⟩
  | .local _ .vmem, ⟨7, _⟩ => ⟨S8192, .i32⟩
  | .local _ .vmem, ⟨8, _⟩ => ⟨S8192, .i32⟩
  | .local _ .vmem, ⟨9, _⟩ => ⟨S8192, .i32⟩
  | .local _ .vmem, ⟨10, _⟩ => ⟨S128x128, .bf16⟩
  | .local _ .vmem, ⟨11, _⟩ => ⟨S128, .f32⟩
  | .local _ .vmem, ⟨12, _⟩ => ⟨S8192x128, .f32⟩
  | .local _ .vmem, ⟨13, _⟩ => ⟨S8192x128, .f32⟩
  | _, _ => ⟨S50x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_0 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S128x128_S128x25_0_0 : S128x128.Slices ![0, 0] S128x25
  slices_S128x128_S128x25_0_25 : S128x128.Slices ![0, 25] S128x25
  slices_S128x128_S128x25_0_50 : S128x128.Slices ![0, 50] S128x25
  slices_S128x128_S128x25_0_75 : S128x128.Slices ![0, 75] S128x25
  slices_S128x128_S128x28_0_100 : S128x128.Slices ![0, 100] S128x28
  transposes_S128x25_S25x128_1_0 : S128x25.Transposes [1, 0] S25x128
  transposes_S128x28_S28x128_1_0 : S128x28.Transposes [1, 0] S28x128
  bcast_S_S128x128 : S_.BroadcastsInDim S128x128 (![] : Fin 0 → Fin S128x128.rank)
  bcast_S_S1 : S_.BroadcastsInDim S1 (![] : Fin 0 → Fin S1.rank)
  bitsLt_bf16_f32 : FTy.bits .bf16 < FTy.bits .f32
  iota_S8192x128_d1_w32 : S8192x128.Iotas .tc 32 [1]
  inb_S8192_S8192_0 : ∀ a, (![0] : Fin 1 → Nat) a + S8192.size a ≤ S8192.size a
  h_S8192 : 0 < S8192.numel
  shapeCasts_S8192_S8192x1 : S8192.ShapeCasts S8192x1
  broadcasts_S8192x1_S8192x128 : S8192x1.Broadcasts S8192x128
  natLt_1_32 : 1 < 32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  dot_S50x25_S25x128_S50x128_1_0_0_1_n_n_wf : DotDims.WF S50x25 S25x128 S50x128 [1] [0] [0] [1] [] []
  dot_S2x25_S25x128_S2x128_1_0_0_1_n_n_wf : DotDims.WF S2x25 S25x128 S2x128 [1] [0] [0] [1] [] []
  dot_S3x25_S25x128_S3x128_1_0_0_1_n_n_wf : DotDims.WF S3x25 S25x128 S3x128 [1] [0] [0] [1] [] []
  dot_S20x28_S28x128_S20x128_1_0_0_1_n_n_wf : DotDims.WF S20x28 S28x128 S20x128 [1] [0] [0] [1] [] []
  scatter_S128x128_S1_S50x128_01_n_0_0_wf : ScatterDims.WF S128x128 S1 S50x128 [0, 1] [] [0] 0
  scatter_S128x128_S1_S2x128_01_n_0_0_wf : ScatterDims.WF S128x128 S1 S2x128 [0, 1] [] [0] 0
  scatter_S128x128_S1_S3x128_01_n_0_0_wf : ScatterDims.WF S128x128 S1 S3x128 [0, 1] [] [0] 0
  scatter_S128x128_S1_S20x128_01_n_0_0_wf : ScatterDims.WF S128x128 S1 S20x128 [0, 1] [] [0] 0
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S1048576.size a
  hwx0_0 : ∀ i : grid0.Coords, EltTy.bits .i32 = 32 ∨ (Rect.block (s := S1048576) S8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1048576.size a
  hwx0_1 : ∀ i : grid0.Coords, EltTy.bits .i32 = 32 ∨ (Rect.block (s := S1048576) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S1048576.size a
  hwx0_2 : ∀ i : grid0.Coords, EltTy.bits .i32 = 32 ∨ (Rect.block (s := S1048576) S8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S1048576.size a
  hwx0_3 : ∀ i : grid0.Coords, EltTy.bits .i32 = 32 ∨ (Rect.block (s := S1048576) S8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192.size a ≤ S1048576.size a
  hwx0_4 : ∀ i : grid0.Coords, EltTy.bits .i32 = 32 ∨ (Rect.block (s := S1048576) S8192.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x128.size a ≤ S1048576x128.size a
  hwx0_7 : ∀ i : grid0.Coords, EltTy.bits .f32 = 32 ∨ (Rect.block (s := S1048576x128) S8192x128.size (cc0_transform_7 i) (hinb0_7 i)).WholeWords (EltTy.packing .f32)

variable [Facts₀]

def dot_S50x25_S25x128_S50x128_1_0_0_1_n_n : DotDims S50x25 S25x128 S50x128 where
  lhsContracting := [1]
  rhsContracting := [0]
  lhsNonContracting := [0]
  rhsNonContracting := [1]
  lhsBatch := []
  rhsBatch := []
  wf := dot_S50x25_S25x128_S50x128_1_0_0_1_n_n_wf
def dot_S2x25_S25x128_S2x128_1_0_0_1_n_n : DotDims S2x25 S25x128 S2x128 where
  lhsContracting := [1]
  rhsContracting := [0]
  lhsNonContracting := [0]
  rhsNonContracting := [1]
  lhsBatch := []
  rhsBatch := []
  wf := dot_S2x25_S25x128_S2x128_1_0_0_1_n_n_wf
def dot_S3x25_S25x128_S3x128_1_0_0_1_n_n : DotDims S3x25 S25x128 S3x128 where
  lhsContracting := [1]
  rhsContracting := [0]
  lhsNonContracting := [0]
  rhsNonContracting := [1]
  lhsBatch := []
  rhsBatch := []
  wf := dot_S3x25_S25x128_S3x128_1_0_0_1_n_n_wf
def dot_S20x28_S28x128_S20x128_1_0_0_1_n_n : DotDims S20x28 S28x128 S20x128 where
  lhsContracting := [1]
  rhsContracting := [0]
  lhsNonContracting := [0]
  rhsNonContracting := [1]
  lhsBatch := []
  rhsBatch := []
  wf := dot_S20x28_S28x128_S20x128_1_0_0_1_n_n_wf
def scatter_S128x128_S1_S50x128_01_n_0_0 : ScatterDims S128x128 S1 S50x128 where
  updateWindowDims := [0, 1]
  insertedWindowDims := []
  scatterDimsToOperandDims := [0]
  indexVectorDim := 0
  wf := scatter_S128x128_S1_S50x128_01_n_0_0_wf
def scatter_S128x128_S1_S2x128_01_n_0_0 : ScatterDims S128x128 S1 S2x128 where
  updateWindowDims := [0, 1]
  insertedWindowDims := []
  scatterDimsToOperandDims := [0]
  indexVectorDim := 0
  wf := scatter_S128x128_S1_S2x128_01_n_0_0_wf
def scatter_S128x128_S1_S3x128_01_n_0_0 : ScatterDims S128x128 S1 S3x128 where
  updateWindowDims := [0, 1]
  insertedWindowDims := []
  scatterDimsToOperandDims := [0]
  indexVectorDim := 0
  wf := scatter_S128x128_S1_S3x128_01_n_0_0_wf
def scatter_S128x128_S1_S20x128_01_n_0_0 : ScatterDims S128x128 S1 S20x128 where
  updateWindowDims := [0, 1]
  insertedWindowDims := []
  scatterDimsToOperandDims := [0]
  indexVectorDim := 0
  wf := scatter_S128x128_S1_S20x128_01_n_0_0_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg7) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S8192x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50x25 : Shape := ⟨2, ![50, 25]⟩
abbrev S2x25 : Shape := ⟨2, ![2, 25]⟩
abbrev S3x25 : Shape := ⟨2, ![3, 25]⟩
abbrev S20x28 : Shape := ⟨2, ![20, 28]⟩
abbrev S128x128 : Shape := ⟨2, ![128, 128]⟩
abbrev S128 : Shape := ⟨1, ![128]⟩
abbrev S1048576 : Shape := ⟨1, ![1048576]⟩
abbrev S_ : Shape := ⟨0, ![]⟩
abbrev S1048576x1 : Shape := ⟨2, ![1048576, 1]⟩
abbrev S1048576x25 : Shape := ⟨2, ![1048576, 25]⟩
abbrev S1048576x28 : Shape := ⟨2, ![1048576, 28]⟩
abbrev S1048576x128 : Shape := ⟨2, ![1048576, 128]⟩
abbrev S1x128 : Shape := ⟨2, ![1, 128]⟩

abbrev nBuf : Space → Nat
  | .hbm => 62
  | .vmem => 0
  | .smem => 0
  | _ => 0

abbrev bufTy : (tb : Table) → Fin (tcTables nBuf tb) → BufTy
  | .hbm, ⟨0, _⟩ => ⟨S50x25, .f32⟩
  | .hbm, ⟨1, _⟩ => ⟨S2x25, .f32⟩
  | .hbm, ⟨2, _⟩ => ⟨S2x25, .f32⟩
  | .hbm, ⟨3, _⟩ => ⟨S3x25, .f32⟩
  | .hbm, ⟨4, _⟩ => ⟨S20x28, .f32⟩
  | .hbm, ⟨5, _⟩ => ⟨S128x128, .f32⟩
  | .hbm, ⟨6, _⟩ => ⟨S128, .f32⟩
  | .hbm, ⟨7, _⟩ => ⟨S1048576, .i32⟩
  | .hbm, ⟨8, _⟩ => ⟨S1048576, .i32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S_, .i32⟩
  | .hbm, ⟨13, _⟩ => ⟨S1048576, .i32⟩
  | .hbm, ⟨14, _⟩ => ⟨S1048576, .i1⟩
  | .hbm, ⟨15, _⟩ => ⟨S_, .i32⟩
  | .hbm, ⟨16, _⟩ => ⟨S1048576, .i32⟩
  | .hbm, ⟨17, _⟩ => ⟨S1048576, .i32⟩
  | .hbm, ⟨18, _⟩ => ⟨S1048576, .i32⟩
  | .hbm, ⟨19, _⟩ => ⟨S1048576x1, .i32⟩
  | .hbm, ⟨20, _⟩ => ⟨S1048576x25, .f32⟩
  | .hbm, ⟨21, _⟩ => ⟨S_, .i32⟩
  | .hbm, ⟨22, _⟩ => ⟨S1048576, .i32⟩
  | .hbm, ⟨23, _⟩ => ⟨S1048576, .i1⟩
  | .hbm, ⟨24, _⟩ => ⟨S_, .i32⟩
  | .hbm, ⟨25, _⟩ => ⟨S1048576, .i32⟩
  | .hbm, ⟨26, _⟩ => ⟨S1048576, .i32⟩
  | .hbm, ⟨27, _⟩ => ⟨S1048576, .i32⟩
  | .hbm, ⟨28, _⟩ => ⟨S1048576x1, .i32⟩
  | .hbm, ⟨29, _⟩ => ⟨S1048576x25, .f32⟩
  | .hbm, ⟨30, _⟩ => ⟨S_, .i32⟩
  | .hbm, ⟨31, _⟩ => ⟨S1048576, .i32⟩
  | .hbm, ⟨32, _⟩ => ⟨S1048576, .i1⟩
  | .hbm, ⟨33, _⟩ => ⟨S_, .i32⟩
  | .hbm, ⟨34, _⟩ => ⟨S1048576, .i32⟩
  | .hbm, ⟨35, _⟩ => ⟨S1048576, .i32⟩
  | .hbm, ⟨36, _⟩ => ⟨S1048576, .i32⟩
  | .hbm, ⟨37, _⟩ => ⟨S1048576x1, .i32⟩
  | .hbm, ⟨38, _⟩ => ⟨S1048576x25, .f32⟩
  | .hbm, ⟨39, _⟩ => ⟨S_, .i32⟩
  | .hbm, ⟨40, _⟩ => ⟨S1048576, .i32⟩
  | .hbm, ⟨41, _⟩ => ⟨S1048576, .i1⟩
  | .hbm, ⟨42, _⟩ => ⟨S_, .i32⟩
  | .hbm, ⟨43, _⟩ => ⟨S1048576, .i32⟩
  | .hbm, ⟨44, _⟩ => ⟨S1048576, .i32⟩
  | .hbm, ⟨45, _⟩ => ⟨S1048576, .i32⟩
  | .hbm, ⟨46, _⟩ => ⟨S1048576x1, .i32⟩
  | .hbm, ⟨47, _⟩ => ⟨S1048576x25, .f32⟩
  | .hbm, ⟨48, _⟩ => ⟨S_, .i32⟩
  | .hbm, ⟨49, _⟩ => ⟨S1048576, .i32⟩
  | .hbm, ⟨50, _⟩ => ⟨S1048576, .i1⟩
  | .hbm, ⟨51, _⟩ => ⟨S_, .i32⟩
  | .hbm, ⟨52, _⟩ => ⟨S1048576, .i32⟩
  | .hbm, ⟨53, _⟩ => ⟨S1048576, .i32⟩
  | .hbm, ⟨54, _⟩ => ⟨S1048576, .i32⟩
  | .hbm, ⟨55, _⟩ => ⟨S1048576x1, .i32⟩
  | .hbm, ⟨56, _⟩ => ⟨S1048576x28, .f32⟩
  | .hbm, ⟨57, _⟩ => ⟨S1048576x128, .f32⟩
  | .hbm, ⟨58, _⟩ => ⟨S1048576x128, .f32⟩
  | .hbm, ⟨59, _⟩ => ⟨S1x128, .f32⟩
  | .hbm, ⟨60, _⟩ => ⟨S1048576x128, .f32⟩
  | .hbm, ⟨61, _⟩ => ⟨S1048576x128, .f32⟩
  | _, _ => ⟨S50x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x25_S1048576x25_S1048576x25_S1048576x25_S1048576x28_S1048576x128_d1 : Shape.Concatenates [S1048576x25, S1048576x25, S1048576x25, S1048576x25, S1048576x28] S1048576x128 1
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  gather_S50x25_S1048576x1_S1048576x25_1_0_n_n_0_1_125_wf : GatherDims.WF S50x25 S1048576x1 S1048576x25 [1] [0] [] [0] [] 1 ![1, 25]
  gather_S2x25_S1048576x1_S1048576x25_1_0_n_n_0_1_125_wf : GatherDims.WF S2x25 S1048576x1 S1048576x25 [1] [0] [] [0] [] 1 ![1, 25]
  gather_S3x25_S1048576x1_S1048576x25_1_0_n_n_0_1_125_wf : GatherDims.WF S3x25 S1048576x1 S1048576x25 [1] [0] [] [0] [] 1 ![1, 25]
  gather_S20x28_S1048576x1_S1048576x28_1_0_n_n_0_1_128_wf : GatherDims.WF S20x28 S1048576x1 S1048576x28 [1] [0] [] [0] [] 1 ![1, 28]
  dot_S1048576x128_S128x128_S1048576x128_1_1_0_0_n_n_wf : DotDims.WF S1048576x128 S128x128 S1048576x128 [1] [1] [0] [0] [] []

variable [Facts₀]

def gather_S50x25_S1048576x1_S1048576x25_1_0_n_n_0_1_125 : GatherDims S50x25 S1048576x1 S1048576x25 where
  offsetDims := [1]
  collapsedSliceDims := [0]
  operandBatchingDims := []
  startIndicesBatchingDims := []
  startIndexMap := [0]
  indexVectorDim := 1
  sliceSizes := ![1, 25]
  wf := gather_S50x25_S1048576x1_S1048576x25_1_0_n_n_0_1_125_wf
def gather_S2x25_S1048576x1_S1048576x25_1_0_n_n_0_1_125 : GatherDims S2x25 S1048576x1 S1048576x25 where
  offsetDims := [1]
  collapsedSliceDims := [0]
  operandBatchingDims := []
  startIndicesBatchingDims := []
  startIndexMap := [0]
  indexVectorDim := 1
  sliceSizes := ![1, 25]
  wf := gather_S2x25_S1048576x1_S1048576x25_1_0_n_n_0_1_125_wf
def gather_S3x25_S1048576x1_S1048576x25_1_0_n_n_0_1_125 : GatherDims S3x25 S1048576x1 S1048576x25 where
  offsetDims := [1]
  collapsedSliceDims := [0]
  operandBatchingDims := []
  startIndicesBatchingDims := []
  startIndexMap := [0]
  indexVectorDim := 1
  sliceSizes := ![1, 25]
  wf := gather_S3x25_S1048576x1_S1048576x25_1_0_n_n_0_1_125_wf
def gather_S20x28_S1048576x1_S1048576x28_1_0_n_n_0_1_128 : GatherDims S20x28 S1048576x1 S1048576x28 where
  offsetDims := [1]
  collapsedSliceDims := [0]
  operandBatchingDims := []
  startIndicesBatchingDims := []
  startIndexMap := [0]
  indexVectorDim := 1
  sliceSizes := ![1, 28]
  wf := gather_S20x28_S1048576x1_S1048576x28_1_0_n_n_0_1_128_wf
def dot_S1048576x128_S128x128_S1048576x128_1_1_0_0_n_n : DotDims S1048576x128 S128x128 S1048576x128 where
  lhsContracting := [1]
  rhsContracting := [1]
  lhsNonContracting := [0]
  rhsNonContracting := [0]
  lhsBatch := []
  rhsBatch := []
  wf := dot_S1048576x128_S128x128_S1048576x128_1_1_0_0_n_n_wf

class Facts : Prop extends Facts₀ where

variable [Facts]
-- ==== Proof.Spec.lean ====
/-
  The function both programs compute, and the two facts about finite sums that join them.

  For row `r` of the batch and output feature `e`, with `ℓ, t, φ, x, p` the five index words of row `r` (each read signed and
  clamped into its table, `rowOf`), the result is

      ∑ f<25 level[ℓ, f]·W[e, f] + ∑ f<25 type[t, f]·W[e, 25+f] + ∑ f<25 feature[φ, f]·W[e, 50+f]
        + ∑ f<25 exchange[x, f]·W[e, 75+f] + ∑ f<28 pair[p, f]·W[e, 100+f] + b[e].

  The reference reaches it as ONE sum over the 128 concatenated columns (`sum_split5` cuts that sum at 25, 50, 75, 100);
  the kernel as a product of a 0/1 row with five ones with a table whose row `c + k` is the `k`-th row of one of five
  smaller products (`onehot_sum`: such a product is the sum of the five selected rows). Only `0 · x = 0`, `1 · x = x` and the
  commutative-monoid laws of `+` on the extended reals are used: no distributivity, hence no finiteness.
-/
import Idealize.ShloMosaic.PureOps.Ideal
import Idealize.ShloMosaic.Lib.ValueIdx
import Mathlib.Algebra.BigOperators.Intervals
import Mathlib.Algebra.BigOperators.Fin

noncomputable section

namespace Cert.Embed

open Idealize.ShloMosaic Idealize.ShloMosaic.ValueIdx

/-- Row of an `n`-row table named by the word `w`: `w` read as a signed integer and clamped into `[0, n − 1]`. -/
def rowOf (n : Nat) (hn : 0 < n) (w : BitVec 32) : Fin n := ⟨min w.toInt.toNat (n - 1), by omega⟩

/-- One table's share of output feature `e`: row `w` of the table against columns `off … off + C − 1` of row `e` of `W`. -/
def term (n C : Nat) (hn : 0 < n) (off : Nat) (hoff : off + C ≤ 128)
    (tab : (⟨2, ![n, C]⟩ : Shape).Idx → EReal) (W : (⟨2, ![128, 128]⟩ : Shape).Idx → EReal) (w : BitVec 32) (e : Fin 128) : EReal :=
  ∑ f : Fin C, tab (ix2 (rowOf n hn w) f) * W (ix2 e ⟨off + f.val, by have := f.isLt; omega⟩)

/-- The embedding of every row, projected: the five tables' shares and the bias. -/
def G (lt : (⟨2, ![50, 25]⟩ : Shape).Idx → EReal) (tt ft : (⟨2, ![2, 25]⟩ : Shape).Idx → EReal)
    (et : (⟨2, ![3, 25]⟩ : Shape).Idx → EReal) (pt : (⟨2, ![20, 28]⟩ : Shape).Idx → EReal)
    (W : (⟨2, ![128, 128]⟩ : Shape).Idx → EReal) (b : (⟨1, ![128]⟩ : Shape).Idx → EReal)
    (li ti fi ei pi : (⟨1, ![1048576]⟩ : Shape).Idx → BitVec 32) : (⟨2, ![1048576, 128]⟩ : Shape).Idx → EReal :=
  fun j =>
    term 50 25 (by decide) 0 (by decide) lt W (li (ix1 (j 0))) (j 1)
    + term 2 25 (by decide) 25 (by decide) tt W (ti (ix1 (j 0))) (j 1)
    + term 2 25 (by decide) 50 (by decide) ft W (fi (ix1 (j 0))) (j 1)
    + term 3 25 (by decide) 75 (by decide) et W (ei (ix1 (j 0))) (j 1)
    + term 20 28 (by decide) 100 (by decide) pt W (pi (ix1 (j 0))) (j 1)
    + b (ix1 (j 1))

/-- A sum over `a + b` consecutive positions is the sum over the first `a` plus the sum over the next `b`. -/
theorem sum_fin_cut {M : Type*} [AddCommMonoid M] (a b n : Nat) (h : a + b = n) (g : Fin n → M) :
    ∑ q : Fin n, g q = ∑ f : Fin a, g ⟨f.val, by have := f.isLt; omega⟩ + ∑ f : Fin b, g ⟨a + f.val, by have := f.isLt; omega⟩ := by
  subst h
  rw [Fin.sum_univ_add]
  rfl

/-- A sum over the 128 concatenated columns, cut where the five tables' columns meet. -/
theorem sum_split5 {M : Type*} [AddCommMonoid M] (g : Fin 128 → M) :
    ∑ q : Fin 128, g q
      = ∑ f : Fin 25, g ⟨0 + f.val, by have := f.isLt; omega⟩ + ∑ f : Fin 25, g ⟨25 + f.val, by have := f.isLt; omega⟩
        + ∑ f : Fin 25, g ⟨50 + f.val, by have := f.isLt; omega⟩ + ∑ f : Fin 25, g ⟨75 + f.val, by have := f.isLt; omega⟩
        + ∑ f : Fin 28, g ⟨100 + f.val, by have := f.isLt; omega⟩ := by
  rw [sum_fin_cut 100 28 128 rfl g, sum_fin_cut 75 25 100 rfl, sum_fin_cut 50 25 75 rfl, sum_fin_cut 25 25 50 rfl]
  simp only [Nat.zero_add]

/-- A 0/1 row with ones at five distinct positions, multiplied into a column, picks the column's five entries. -/
theorem onehot_sum (k1 k2 k3 k4 k5 : Fin 128) (h12 : k1 ≠ k2) (h13 : k1 ≠ k3) (h14 : k1 ≠ k4) (h15 : k1 ≠ k5)
    (h23 : k2 ≠ k3) (h24 : k2 ≠ k4) (h25 : k2 ≠ k5) (h34 : k3 ≠ k4) (h35 : k3 ≠ k5) (h45 : k4 ≠ k5)
    (oh ms : Fin 128 → EReal)
    (hoh : ∀ k, oh k = if k = k1 ∨ k = k2 ∨ k = k3 ∨ k = k4 ∨ k = k5 then 1 else 0) :
    ∑ k : Fin 128, oh k * ms k = ms k1 + ms k2 + ms k3 + ms k4 + ms k5 := by
  have e : ∀ k, oh k * ms k = if k ∈ ({k1, k2, k3, k4, k5} : Finset (Fin 128)) then ms k else 0 := by
    intro k
    rw [hoh k]
    simp only [Finset.mem_insert, Finset.mem_singleton]
    split
    · exact one_mul _
    · exact zero_mul _
  simp only [e]
  rw [Finset.sum_ite_mem, Finset.univ_inter]
  rw [Finset.sum_insert (by simp [h12, h13, h14, h15]), Finset.sum_insert (by simp [h23, h24, h25]),
    Finset.sum_insert (by simp [h34, h35]), Finset.sum_insert (by simp [h45]), Finset.sum_singleton]
  simp only [add_assoc]

end Cert.Embed

end
-- ==== Proof.IndexWords.lean ====
/-
  Facts about 32-bit index words: the kernel's clip, its one-hot test, the reference's wrap of negative indices.
-/
import Idealize.ShloMosaic.PureOps.Float

namespace Cert.Embed

open Idealize.ShloMosaic

theorem toInt_cases (x : BitVec 32) : (x.toInt = x.toNat ∧ x.toNat < 2 ^ 31) ∨ (x.toInt = (x.toNat : Int) - 2 ^ 32 ∧ 2 ^ 31 ≤ x.toNat) := by
  have := x.isLt
  rw [BitVec.toInt_eq_toNat_cond]
  split <;> omega

theorem toNat_ofNat_small (m : Nat) (hm : m < 2 ^ 32) : (BitVec.ofNat 32 m).toNat = m := by
  rw [BitVec.toNat_ofNat]; exact Nat.mod_eq_of_lt hm

theorem ofBool_eq_one (b : Bool) : BitVec.ofBool b = 1#1 ↔ b = true := by cases b <;> decide

/-- A signed test `0 ≤ w` that holds says the word's integer is not negative. -/
theorem nonneg_of_sge (w : BitVec 32) (h : IntOp.cmpi .sge w 0#32 = 1#1) : 0 ≤ w.toInt := by
  have h' : BitVec.ofBool ((0#32 : BitVec 32).sle w) = 1#1 := h
  rw [ofBool_eq_one] at h'
  simpa [BitVec.sle] using h'

/-- The reference's wrap `select (w < 0) (w + n) w` leaves a non-negative word alone. -/
theorem wrap_nonneg (n w : BitVec 32) (h : 0 ≤ w.toInt) :
    Scalar.select (IntOp.cmpi .slt w 0#32) (IntOp.addi w n) w = w := by
  have hs : w.slt 0#32 = false := by simp [BitVec.slt]; omega
  show (if BitVec.ofBool (w.slt 0#32) = 1 then IntOp.addi w n else w) = w
  rw [hs]; simp

/-- The kernel's clip `min m (max 0 w)`, both signed, is the word clamped into `[0, m]`. -/
theorem clip_toNat (m : Nat) (hm : m < 2 ^ 31) (w : BitVec 32) :
    (IntOp.minsi (BitVec.ofNat 32 m) (IntOp.maxsi 0#32 w)).toNat = min w.toInt.toNat m := by
  have hM : (BitVec.ofNat 32 m).toNat = m := toNat_ofNat_small m (by omega)
  have hMi : (BitVec.ofNat 32 m).toInt = m := by
    rcases toInt_cases (BitVec.ofNat 32 m) with ⟨e, _⟩ | ⟨_, e⟩
    · rw [e, hM]
    · rw [hM] at e; omega
  unfold IntOp.minsi IntOp.maxsi
  simp only [BitVec.slt, BitVec.toInt_zero, decide_eq_true_eq]
  rcases toInt_cases w with ⟨e, hlt⟩ | ⟨e, hge⟩
  · by_cases h0 : w.toInt < 0
    · omega
    · rw [if_neg h0]
      by_cases h1 : (BitVec.ofNat 32 m).toInt < w.toInt
      · rw [if_pos h1, hM]; omega
      · rw [if_neg h1]; omega
  · have h0 : w.toInt < 0 := by omega
    rw [if_pos h0]
    have h1 : ¬ (BitVec.ofNat 32 m).toInt < (0#32 : BitVec 32).toInt := by rw [hMi]; simp
    rw [if_neg h1]
    simp; omega

/-- The one-hot test: column `col` equals the clipped word plus the table's row offset `c` exactly when it is that number. -/
theorem hot_iff (m c col : Nat) (hm : m + c < 2 ^ 31) (hcol : col < 2 ^ 31) (w : BitVec 32) :
    IntOp.cmpi .eq (BitVec.ofNat 32 col) (IntOp.addi (IntOp.minsi (BitVec.ofNat 32 m) (IntOp.maxsi 0#32 w)) (BitVec.ofNat 32 c)) = 1#1
      ↔ col = min w.toInt.toNat m + c := by
  have hv := clip_toNat m (by omega) w
  generalize IntOp.minsi (BitVec.ofNat 32 m) (IntOp.maxsi 0#32 w) = v at hv
  show BitVec.ofBool (BitVec.ofNat 32 col == v + BitVec.ofNat 32 c) = 1#1 ↔ _
  rw [ofBool_eq_one]
  have hc : (BitVec.ofNat 32 c).toNat = c := toNat_ofNat_small c (by omega)
  have hcl : (BitVec.ofNat 32 col).toNat = col := toNat_ofNat_small col (by omega)
  have hsum : (v + BitVec.ofNat 32 c).toNat = min w.toInt.toNat m + c := by
    rw [BitVec.toNat_add, hv, hc]; apply Nat.mod_eq_of_lt; omega
  constructor
  · intro h
    have := congrArg BitVec.toNat (eq_of_beq h)
    rw [hcl, hsum] at this; exact this
  · intro h
    have : BitVec.ofNat 32 col = v + BitVec.ofNat 32 c := by
      apply BitVec.eq_of_toNat_eq; rw [hcl, hsum, h]
    rw [this]; simp

theorem ori_eq_one (a b : BitVec 1) : IntOp.ori a b = 1#1 ↔ a = 1#1 ∨ b = 1#1 := by
  revert a b; decide

/-- A truth value widened to 32 bits and read as a signed integer is 1 or 0. -/
theorem extui_toInt (a : BitVec 1) : (a.setWidth 32).toInt = if a = 1#1 then 1 else 0 := by
  revert a; decide

end Cert.Embed
-- ==== Proof.KernelBody.lean ====
/-
  The kernel body's one store, read at an entry: row `p` of the block times the stacked table, plus the bias.

  The body builds, for each of its 8192 rows, a 0/1 row of 128 columns with a one at column `off + clip(w)` for each of the row's five
  index words (offsets 0, 50, 52, 54, 57; `clip` the signed clamp into the table's rows), as the OR of five compares with a column
  iota, widens it to a float (0.0 or 1.0 exactly), multiplies it into the [128 × 128] stacked table and adds the bias row.
-/
import proofs.«411936_j9380208574576_3_alg».proof.Proof.Gen.KernelIdeal.Skeleton
import proofs.«411936_j9380208574576_3_alg».proof.Proof.IndexWords
import Idealize.ShloMosaic.PureOps.Ideal.Laws
import Idealize.ShloMosaic.Lib.ValueIdx
import Idealize.ShloMosaic.Lib.ValueLayout
import Idealize.ShloMosaic.Lib.Pipeline.Value

noncomputable section

namespace Cert.Embed

open Idealize.ShloMosaic Idealize.ShloMosaic.ValueIdx Cert.KernelIdeal Cert.KernelIdeal.Gen

/-- The 0/1 row for index words `w0 … w4`, at column `k`. -/
def hot (w0 w1 w2 w3 w4 : BitVec 32) (k : Fin 128) : EReal :=
  if k.val = min w0.toInt.toNat 49 + 0 ∨ k.val = min w1.toInt.toNat 1 + 50 ∨ k.val = min w2.toInt.toNat 1 + 52
      ∨ k.val = min w3.toInt.toNat 2 + 54 ∨ k.val = min w4.toInt.toNat 19 + 57 then 1 else 0

/-- A column vector broadcast along the rows reads its row's entry. -/
theorem col_bcast {α : Type} (v : S8192x1.Idx → α) (p : Fin 8192) (k : Fin 128) :
    broadcastTo S8192x128 v broadcasts_S8192x1_S8192x128 (ix2 p k) = v (ix2 p (0 : Fin 1)) := by
  refine broadcastTo_apply v broadcasts_S8192x1_S8192x128 (ix2 p k) (ix2 p (0 : Fin 1)) fun ax => ?_
  match ax with
  | ⟨0, _⟩ => rfl
  | ⟨1, _⟩ => rfl

/-- A vector recast as a column reads the vector. -/
theorem col_cast {α : Type} (u : S8192.Idx → α) (p : Fin 8192) :
    shapeCast S8192x1 u shapeCasts_S8192_S8192x1 (ix2 p (0 : Fin 1)) = u (ix1 p) := by
  refine shapeCast_apply u shapeCasts_S8192_S8192x1 (ix2 p (0 : Fin 1)) (ix1 p) ?_
  rw [Shape.rowMajor_val_one, Shape.rowMajor_val_two]
  show p.val = p.val * 1 + 0
  omega

/-- The column iota at `(p, k)` is the word `k`. -/
theorem iota_col (p : Fin 8192) (k : Fin 128) :
    iota .tc S8192x128 32 [1] iota_S8192x128_d1_w32 (ix2 p k) = BitVec.ofNat 32 k.val := by
  show BitVec.ofNat 32 (0 * 128 + k.val) = _
  rw [Nat.zero_mul, Nat.zero_add]

/-- One compare of the one-hot: the column iota against the clipped word of row `p`, offset by `c`. -/
theorem test_apply (m c : Nat) (hm : m + c < 2 ^ 31) (x : S8192.Idx → BitVec 32) (p : Fin 8192) (k : Fin 128) :
    cmpi .eq (iota .tc S8192x128 32 [1] iota_S8192x128_d1_w32)
        (broadcastTo S8192x128 (addi (shapeCast S8192x1 (minsi (broadcast S8192 (BitVec.ofNat 32 m)) (maxsi (broadcast S8192 0#32) x)) shapeCasts_S8192_S8192x1)
          (broadcast S8192x1 (BitVec.ofNat 32 c))) broadcasts_S8192x1_S8192x128) (ix2 p k) = 1#1
      ↔ k.val = min (x (ix1 p)).toInt.toNat m + c := by
  show IntOp.cmpi .eq (iota .tc S8192x128 32 [1] iota_S8192x128_d1_w32 (ix2 p k)) (broadcastTo S8192x128 _ broadcasts_S8192x1_S8192x128 (ix2 p k)) = 1#1 ↔ _
  rw [iota_col, col_bcast]
  show IntOp.cmpi .eq (BitVec.ofNat 32 k.val) (IntOp.addi (shapeCast S8192x1 _ shapeCasts_S8192_S8192x1 (ix2 p (0 : Fin 1))) (BitVec.ofNat 32 c)) = 1#1 ↔ _
  rw [col_cast]
  exact hot_iff m c k.val hm (by have := k.isLt; omega) (x (ix1 p))

/-- The OR of the five compares, as the body builds it. -/
def rowBits (x0 x1 x2 x3 x4 : S8192.Idx → BitVec 32) : IVec S8192x128 1 :=
  ori (ori (ori (k0_pay5 (F := Ideal) x0 x1)
      (cmpi .eq (iota .tc S8192x128 32 [1] iota_S8192x128_d1_w32)
        (broadcastTo S8192x128 (addi (k0_pay2 (F := Ideal) x2) k0_pay6) broadcasts_S8192x1_S8192x128)))
      (cmpi .eq (iota .tc S8192x128 32 [1] iota_S8192x128_d1_w32)
        (broadcastTo S8192x128 (addi (k0_pay3 (F := Ideal) x3) (broadcast S8192x1 54#32)) broadcasts_S8192x1_S8192x128)))
      (cmpi .eq (iota .tc S8192x128 32 [1] iota_S8192x128_d1_w32)
        (broadcastTo S8192x128 (addi (k0_pay4 (F := Ideal) x4) (broadcast S8192x1 57#32)) broadcasts_S8192x1_S8192x128))

/-- The OR holds at `(p, k)` exactly when `k` is one of the five offset, clipped words of row `p`. -/
theorem rowBits_iff (x0 x1 x2 x3 x4 : S8192.Idx → BitVec 32) (p : Fin 8192) (k : Fin 128) :
    rowBits x0 x1 x2 x3 x4 (ix2 p k) = 1#1
      ↔ (k.val = min (x0 (ix1 p)).toInt.toNat 49 + 0 ∨ k.val = min (x1 (ix1 p)).toInt.toNat 1 + 50 ∨ k.val = min (x2 (ix1 p)).toInt.toNat 1 + 52
          ∨ k.val = min (x3 (ix1 p)).toInt.toNat 2 + 54 ∨ k.val = min (x4 (ix1 p)).toInt.toNat 19 + 57) := by
  have hA := test_apply 49 0 (by norm_num) x0 p k
  have hB := test_apply 1 50 (by norm_num) x1 p k
  have hC := test_apply 1 52 (by norm_num) x2 p k
  have hD := test_apply 2 54 (by norm_num) x3 p k
  have hE := test_apply 19 57 (by norm_num) x4 p k
  have h := (ori_eq_one _ _).trans (or_congr ((ori_eq_one _ _).trans (or_congr ((ori_eq_one _ _).trans
    (or_congr ((ori_eq_one _ _).trans (or_congr hA hB)) hC)) hD)) hE)
  exact h.trans (by simp only [or_assoc])

/-- The 0/1 row as a float: exactly `hot`. -/
theorem row_apply (x0 x1 x2 x3 x4 : S8192.Idx → BitVec 32) (p : Fin 8192) (k : Fin 128) :
    truncf (F := Ideal) .bf16 (sitofp .f32 (extui 32 (rowBits x0 x1 x2 x3 x4) natLt_1_32)) bitsLt_bf16_f32 (ix2 p k)
      = hot (x0 (ix1 p)) (x1 (ix1 p)) (x2 (ix1 p)) (x3 (ix1 p)) (x4 (ix1 p)) k := by
  show (((((rowBits x0 x1 x2 x3 x4 (ix2 p k)).setWidth 32).toInt : ℝ)) : EReal) = _
  rw [extui_toInt]
  unfold hot
  by_cases h : rowBits x0 x1 x2 x3 x4 (ix2 p k) = 1#1
  · rw [if_pos h, if_pos ((rowBits_iff x0 x1 x2 x3 x4 p k).1 h)]; simp
  · rw [if_neg h, if_neg (fun h' => h ((rowBits_iff x0 x1 x2 x3 x4 p k).2 h'))]; simp

theorem lhs_mm_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_mm_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_mm_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_mm_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The matrix unit's product into a zero accumulator, at `(p, e)`: row `p` of the left against column `e` of the right. -/
theorem matmul_rows (l : FVec Ideal S8192x128 .bf16) (r : FVec Ideal S128x128 .bf16) (p : Fin 8192) (e : Fin 128) :
    matmul dot_S8192x128_S128x128_S8192x128_1_0_0_1_n_n none l r (constant S8192x128 .f32 0x00000000#32) (ix2 p e)
      = ∑ k : Fin 128, l (ix2 p k) * r (ix2 k e) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p e) ((contrEquiv1 dot_S8192x128_S128x128_S8192x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S8192x128_S128x128_S8192x128_1_0_0_1_n_n.rhsIdx (ix2 p e) ((contrEquiv1 dot_S8192x128_S128x128_S8192x128_1_0_0_1_n_n 128 rfl rfl).symm k) = ix2 k e := funext fun a => Fin.ext (by
    match a with
    | ⟨0, _⟩ => exact (rhs_mm_0 _ _).trans hk
    | ⟨1, _⟩ => exact rhs_mm_1 _ _)
  rw [el, er]

/-- The bias row recast and broadcast down the rows reads the bias at the column. -/
theorem bias_apply {α : Type} (x6 : S128.Idx → α) (p : Fin 8192) (e : Fin 128) :
    broadcastTo S8192x128 (shapeCast S1x128 x6 shapeCasts_S128_S1x128) broadcasts_S1x128_S8192x128 (ix2 p e) = x6 (ix1 e) := by
  rw [show broadcastTo S8192x128 (shapeCast S1x128 x6 shapeCasts_S128_S1x128) broadcasts_S1x128_S8192x128 (ix2 p e)
      = shapeCast S1x128 x6 shapeCasts_S128_S1x128 (ix2 (0 : Fin 1) e) from broadcastTo_1b_ab_apply _ _ p e]
  exact shapeCast_a_1a_apply x6 shapeCasts_S128_S1x128 (0 : Fin 1) e

/-- THE BODY'S STORE at `(p, e)`: the 0/1 row of row `p` against column `e` of the stacked table, plus the bias. -/
theorem body_apply (x0 x1 x2 x3 x4 : Vec Ideal S8192 .i32) (x5 : Vec Ideal S128x128 .bf16) (x6 : Vec Ideal S128 .f32)
    (p : Fin 8192) (e : Fin 128) :
    k0_pay1 (F := Ideal) (iota .tc S8192x128 32 [1] iota_S8192x128_d1_w32) (k0_pay2 x2) (k0_pay3 x3) (k0_pay4 x4) (k0_pay5 x0 x1) k0_pay6 x5 x6 (ix2 p e)
      = (∑ k : Fin 128, hot (x0 (ix1 p)) (x1 (ix1 p)) (x2 (ix1 p)) (x3 (ix1 p)) (x4 (ix1 p)) k * x5 (ix2 k e)) + x6 (ix1 e) := by
  have h1 : k0_pay1 (F := Ideal) (iota .tc S8192x128 32 [1] iota_S8192x128_d1_w32) (k0_pay2 x2) (k0_pay3 x3) (k0_pay4 x4) (k0_pay5 x0 x1) k0_pay6 x5 x6 (ix2 p e)
      = matmul dot_S8192x128_S128x128_S8192x128_1_0_0_1_n_n none
            (truncf (F := Ideal) .bf16 (sitofp .f32 (extui 32 (rowBits x0 x1 x2 x3 x4) natLt_1_32)) bitsLt_bf16_f32)
            (shapeCast S128x128 x5 shapeCasts_S128x128_S128x128) (constant S8192x128 .f32 0x00000000#32) (ix2 p e)
        + broadcastTo S8192x128 (shapeCast S1x128 x6 shapeCasts_S128_S1x128) broadcasts_S1x128_S8192x128 (ix2 p e) := rfl
  rw [h1, matmul_rows, bias_apply]
  congr 1
  refine Finset.sum_congr rfl fun k _ => ?_
  rw [row_apply, shapeCast_self]

end Cert.Embed

end
-- ==== Proof.FusedTable.lean ====
/-
  The stacked table the kernel's host code builds, as a function of the argument arrays.

  Each small table is multiplied by the transposed column block of `W` that its columns meet in the concatenated embedding
  (`level @ W[:, 0:25].T`, `type @ W[:, 25:50].T`, `feature @ W[:, 50:75].T`, `exchange @ W[:, 75:100].T`, `pair @ W[:, 100:128].T`),
  and the five products are written into rows 0–49, 50–51, 52–53, 54–56, 57–76 of a [128 × 128] array of zeros.
-/
import proofs.«411936_j9380208574576_3_alg».proof.Proof.Gen.KernelIdeal.Frame
import Idealize.ShloMosaic.Lib.StableHlo.Run

noncomputable section

namespace Cert.Embed

open Idealize.ShloMosaic Idealize.ShloMosaic.TcCoe Idealize.SL.Sem Cert.KernelIdeal Cert.KernelIdeal.Gen

variable {F : FTy → Type} [FloatOps F]

/-- `level @ W[:, 0:25].T`. -/
def foldLevel (lt : FVec F S50x25 .f32) (W : FVec F S128x128 .f32) : FVec F S50x128 .f32 :=
  Host.dotGeneral dot_S50x25_S25x128_S50x128_1_0_0_1_n_n none lt
    (transpose S25x128 [1, 0] (extractStridedSlice S128x25 ![0, 0] W slices_S128x128_S128x25_0_0) transposes_S128x25_S25x128_1_0)
/-- `type @ W[:, 25:50].T`. -/
def foldType (tt : FVec F S2x25 .f32) (W : FVec F S128x128 .f32) : FVec F S2x128 .f32 :=
  Host.dotGeneral dot_S2x25_S25x128_S2x128_1_0_0_1_n_n none tt
    (transpose S25x128 [1, 0] (extractStridedSlice S128x25 ![0, 25] W slices_S128x128_S128x25_0_25) transposes_S128x25_S25x128_1_0)
/-- `feature @ W[:, 50:75].T`. -/
def foldFeature (ft : FVec F S2x25 .f32) (W : FVec F S128x128 .f32) : FVec F S2x128 .f32 :=
  Host.dotGeneral dot_S2x25_S25x128_S2x128_1_0_0_1_n_n none ft
    (transpose S25x128 [1, 0] (extractStridedSlice S128x25 ![0, 50] W slices_S128x128_S128x25_0_50) transposes_S128x25_S25x128_1_0)
/-- `exchange @ W[:, 75:100].T`. -/
def foldExchange (et : FVec F S3x25 .f32) (W : FVec F S128x128 .f32) : FVec F S3x128 .f32 :=
  Host.dotGeneral dot_S3x25_S25x128_S3x128_1_0_0_1_n_n none et
    (transpose S25x128 [1, 0] (extractStridedSlice S128x25 ![0, 75] W slices_S128x128_S128x25_0_75) transposes_S128x25_S25x128_1_0)
/-- `pair @ W[:, 100:128].T`. -/
def foldPair (pt : FVec F S20x28 .f32) (W : FVec F S128x128 .f32) : FVec F S20x128 .f32 :=
  Host.dotGeneral dot_S20x28_S28x128_S20x128_1_0_0_1_n_n none pt
    (transpose S28x128 [1, 0] (extractStridedSlice S128x28 ![0, 100] W slices_S128x128_S128x28_0_100) transposes_S128x28_S28x128_1_0)

/-- The five products written, in order, into the rows of a zero array; the result narrowed to the kernel's operand format. -/
def stack (lt : FVec F S50x25 .f32) (tt ft : FVec F S2x25 .f32) (et : FVec F S3x25 .f32) (pt : FVec F S20x28 .f32)
    (W : FVec F S128x128 .f32) : FVec F S128x128 .bf16 :=
  truncf .bf16
    (Host.scatter scatter_S128x128_S1_S20x128_01_n_0_0 (fun _ b => b)
      (Host.scatter scatter_S128x128_S1_S3x128_01_n_0_0 (fun _ b => b)
        (Host.scatter scatter_S128x128_S1_S2x128_01_n_0_0 (fun _ b => b)
          (Host.scatter scatter_S128x128_S1_S2x128_01_n_0_0 (fun _ b => b)
            (Host.scatter scatter_S128x128_S1_S50x128_01_n_0_0 (fun _ b => b)
              (broadcastInDim S128x128 ![] bcast_S_S128x128 (constant S_ .f32 0x00000000#32))
              (broadcastInDim S1 ![] bcast_S_S1 (constantI S_ 32 0#32)) (foldLevel lt W))
            (broadcastInDim S1 ![] bcast_S_S1 (constantI S_ 32 50#32)) (foldType tt W))
          (broadcastInDim S1 ![] bcast_S_S1 (constantI S_ 32 52#32)) (foldFeature ft W))
        (broadcastInDim S1 ![] bcast_S_S1 (constantI S_ 32 54#32)) (foldExchange et W))
      (broadcastInDim S1 ![] bcast_S_S1 (constantI S_ 32 57#32)) (foldPair pt W))
    bitsLt_bf16_f32

variable (m : (ℓ : Loc nD τ sig) → Buf (Elt F) ℓ)

/-- The kernel's sixth operand, as the region finds it, is the stacked table of the argument arrays. -/
theorem table_eq (c : Dev nD) :
    (V m c main_v26 : S128x128.Idx → Elt F .bf16)
      = stack (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  dsimp only [V, hostOps0]
  after_results_simp <;> rfl

end Cert.Embed

end
-- ==== Proof.ScatterRows.lean ====
/-
  A scatter of whole rows at one literal start row, read at an index.
-/
import Idealize.ShloMosaic.PureOps.ShapeOps
import Idealize.ShloMosaic.Lib.ValueIdx

noncomputable section

namespace Cert.Embed

open Idealize.ShloMosaic Idealize.ShloMosaic.ValueIdx

/-- A left fold, read at one position `t`, of a step that leaves `t` alone at the entries outside `P` and puts `v n` there at an
    entry `n` inside: over a list without repeats the fold ends at `t` with `v n0` when `n0` is the one entry inside `P`, and
    with the initial value when there is none. -/
theorem foldl_write_at {ι I α : Type} (step : (I → α) → ι → I → α) (t : I) (P : ι → Prop) (v : ι → α)
    (hmiss : ∀ r n, ¬ P n → step r n t = r t) (hhit : ∀ r n, P n → step r n t = v n) :
    ∀ (L : List ι), L.Nodup → ∀ (r : I → α) (rhs : α),
      ((∃ n0 ∈ L, P n0 ∧ (∀ n ∈ L, P n → n = n0) ∧ rhs = v n0) ∨ ((∀ n ∈ L, ¬ P n) ∧ rhs = r t)) →
      L.foldl step r t = rhs := by
  -- no entry inside `P`: nothing is written at `t`
  have none_in : ∀ (L : List ι) (r : I → α), (∀ n ∈ L, ¬ P n) → L.foldl step r t = r t := by
    intro L
    induction L with
    | nil => intro r _; rfl
    | cons n L ih =>
      intro r h
      rw [List.foldl_cons, ih _ (fun m hm => h m (List.mem_cons_of_mem _ hm))]
      exact hmiss r n (h n List.mem_cons_self)
  intro L
  induction L with
  | nil =>
    intro _ r rhs h
    rcases h with ⟨n0, h0, _⟩ | ⟨_, hr⟩
    · exact absurd h0 List.not_mem_nil
    · rw [hr]; rfl
  | cons n L ih =>
    intro hnd r rhs h
    have hnd' := List.nodup_cons.1 hnd
    rw [List.foldl_cons]
    rcases h with ⟨n0, h0, hP0, huniq, hr⟩ | ⟨hnone, hr⟩
    · by_cases hn : n = n0
      · -- the head is the entry inside `P`: it writes, and the tail, which does not repeat it, has none inside
        have htail : ∀ m ∈ L, ¬ P m := fun m hm hPm =>
          hnd'.1 (by rw [hn, ← huniq m (List.mem_cons_of_mem _ hm) hPm]; exact hm)
        rw [none_in L _ htail, hr, hn]
        exact hhit r n0 hP0
      · -- the head is outside `P` and the entry is in the tail
        have h0' : n0 ∈ L := (List.mem_cons.1 h0).resolve_left (fun e => hn e.symm)
        exact ih hnd'.2 _ rhs (Or.inl ⟨n0, h0', hP0, fun m hm => huniq m (List.mem_cons_of_mem _ hm), hr⟩)
    · rw [none_in L _ (fun m hm => hnone m (List.mem_cons_of_mem _ hm)), hr]
      exact hmiss r n (hnone n List.mem_cons_self)

/-- An entry of a list that is known by an equation, at a position known by an equation. -/
theorem getElem_of_eq {β : Type} {l l' : List β} (h : l = l') {k k' : Nat} (hk : k = k') (hlt : k < l.length)
    (hlt' : k' < l'.length) : l[k] = l'[k'] := by
  subst h hk; rfl

/-- Two rank-2 indices with equal coordinates are equal. -/
theorem ix2_congr {n0 n1 : Nat} {a c : Fin n0} {b e : Fin n1} (h0 : a = c) (h1 : b = e) : ix2 a b = ix2 c e := by
  subst h0 h1; rfl

section Rows

variable {N M R w : Nat} (d : ScatterDims ⟨2, ![N, M]⟩ ⟨1, ![1]⟩ ⟨2, ![R, M]⟩)

/-- Nothing inserted: both operand axes are window axes. -/
theorem sKept_rows (hi : d.insertedWindowDims = []) : d.sKept = [0, 1] := by
  show (List.finRange 2).filter (fun a => decide (a ∉ d.insertedWindowDims)) = [0, 1]
  rw [hi]; rfl

/-- The window coordinate on the row axis is the update's row. -/
theorem window_rows_0 (hw : d.updateWindowDims = [0, 1]) (hi : d.insertedWindowDims = []) (p : Fin R) (q : Fin M) :
    d.window (ix2 p q) 0 = p.val := by
  have hk := sKept_rows d hi
  unfold ScatterDims.window
  rw [dif_pos (by rw [hk]; simp)]
  have key : ∀ a : Fin 2, a = 0 → ((ix2 p q : (⟨2, ![R, M]⟩ : Shape).Idx) a).val = p.val := by
    intro a ha; subst ha; rfl
  apply key
  exact (getElem_of_eq hw (show List.idxOf (0 : Fin 2) d.sKept = 0 by rw [hk]; rfl) _ (Nat.zero_lt_succ _)).trans rfl

/-- The window coordinate on the column axis is the update's column. -/
theorem window_rows_1 (hw : d.updateWindowDims = [0, 1]) (hi : d.insertedWindowDims = []) (p : Fin R) (q : Fin M) :
    d.window (ix2 p q) 1 = q.val := by
  have hk := sKept_rows d hi
  unfold ScatterDims.window
  rw [dif_pos (by rw [hk]; simp)]
  have key : ∀ a : Fin 2, a = 1 → ((ix2 p q : (⟨2, ![R, M]⟩ : Shape).Idx) a).val = q.val := by
    intro a ha; subst ha; rfl
  apply key
  exact (getElem_of_eq hw (show List.idxOf (1 : Fin 2) d.sKept = 1 by rw [hk]; rfl) _ (Nat.lt_succ_self _)).trans rfl

/-- The start on the row axis is the one start index, read signed. -/
theorem start_rows_0 (hs : d.scatterDimsToOperandDims = [0]) (hv : d.indexVectorDim = 0) (idx : IVec ⟨1, ![1]⟩ w)
    (j : (⟨2, ![R, M]⟩ : Shape).Idx) : d.start j idx 0 = (idx (ix1 0)).toInt := by
  unfold ScatterDims.start
  rw [dif_pos (by rw [hs]; exact List.mem_singleton.mpr rfl)]
  congr 2
  funext b
  match b with
  | ⟨0, _⟩ =>
    unfold ScatterDims.siIdx
    rw [dif_pos (by rw [hv])]
    apply Fin.ext
    show List.idxOf (0 : Fin 2) d.scatterDimsToOperandDims = 0
    rw [hs]; rfl

/-- The start on the column axis, which the start index does not name, is 0. -/
theorem start_rows_1 (hs : d.scatterDimsToOperandDims = [0]) (idx : IVec ⟨1, ![1]⟩ w)
    (j : (⟨2, ![R, M]⟩ : Shape).Idx) : d.start j idx 1 = 0 := by
  unfold ScatterDims.start
  rw [dif_neg (by rw [hs]; simp)]

/-- Update index (p, q) lands at (s + p, q), inside the operand since the rows fit. -/
theorem resultIdx?_rows (hw : d.updateWindowDims = [0, 1]) (hi : d.insertedWindowDims = [])
    (hs : d.scatterDimsToOperandDims = [0]) (hv : d.indexVectorDim = 0) (idx : IVec ⟨1, ![1]⟩ w)
    (s : Nat) (hs0 : (idx (ix1 0)).toInt = (s : Int)) (hfit : s + R ≤ N) (p : Fin R) (q : Fin M) :
    d.resultIdx? (ix2 p q) idx = some (ix2 ⟨s + p.val, by omega⟩ q) := by
  have hst0 : d.start (ix2 p q) idx 0 = (s : Int) := (start_rows_0 d hs hv idx _).trans hs0
  have hst1 := start_rows_1 d hs idx (ix2 p q)
  have hwi0 := window_rows_0 d hw hi p q
  have hwi1 := window_rows_1 d hw hi p q
  have hp := p.isLt
  have hq := q.isLt
  have hall : ∀ a, 0 ≤ d.start (ix2 p q) idx a + d.window (ix2 p q) a ∧
      d.start (ix2 p q) idx a + d.window (ix2 p q) a < ((⟨2, ![N, M]⟩ : Shape).size a : Int) := by
    intro a
    match a with
    | ⟨0, _⟩ =>
      show 0 ≤ d.start (ix2 p q) idx 0 + d.window (ix2 p q) 0 ∧ d.start (ix2 p q) idx 0 + d.window (ix2 p q) 0 < (N : Int)
      rw [hst0, hwi0]; omega
    | ⟨1, _⟩ =>
      show 0 ≤ d.start (ix2 p q) idx 1 + d.window (ix2 p q) 1 ∧ d.start (ix2 p q) idx 1 + d.window (ix2 p q) 1 < (M : Int)
      rw [hst1, hwi1]; omega
  unfold ScatterDims.resultIdx?
  rw [dif_pos hall]
  congr 1
  funext a
  match a with
  | ⟨0, _⟩ =>
    apply Fin.ext
    show (d.start (ix2 p q) idx 0 + d.window (ix2 p q) 0).toNat = s + p.val
    rw [hst0, hwi0]; omega
  | ⟨1, _⟩ =>
    apply Fin.ext
    show (d.start (ix2 p q) idx 1 + d.window (ix2 p q) 1).toNat = q.val
    rw [hst1, hwi1]; omega

end Rows

/-- `x.at[s : s + R].set(upd)` on the rows of an [N × M] array, as StableHLO's scatter with ONE start index `[s]` on axis 0, the
    update's two axes its window axes and nothing inserted, the body returning the update: inside rows `s … s + R − 1` the result
    is the update's row `k − s`, elsewhere the operand. -/
theorem scatter_rows_apply {α : Type} {N M R w : Nat}
    (d : ScatterDims ⟨2, ![N, M]⟩ ⟨1, ![1]⟩ ⟨2, ![R, M]⟩)
    (hw : d.updateWindowDims = [0, 1]) (hi : d.insertedWindowDims = [])
    (hs : d.scatterDimsToOperandDims = [0]) (hv : d.indexVectorDim = 0)
    (x : (⟨2, ![N, M]⟩ : Shape).Idx → α) (idx : IVec ⟨1, ![1]⟩ w) (upd : (⟨2, ![R, M]⟩ : Shape).Idx → α)
    (s : Nat) (hs0 : (idx (ix1 0)).toInt = (s : Int)) (hfit : s + R ≤ N) (k : Fin N) (e : Fin M) :
    Host.scatter d (fun _ b => b) x idx upd (ix2 k e)
      = if h : s ≤ k.val ∧ k.val < s + R then upd (ix2 ⟨k.val - s, by omega⟩ e) else x (ix2 k e) := by
  -- where each update index lands, the index split into its coordinates
  have hres : ∀ j : (⟨2, ![R, M]⟩ : Shape).Idx,
      d.resultIdx? j idx = some (ix2 ⟨s + (j 0).val, by have := idx2_lt0 j; omega⟩ (j 1)) := fun j =>
    (congrArg (fun t => d.resultIdx? t idx) (eq_ix2 j)).trans (resultIdx?_rows d hw hi hs hv idx s hs0 hfit (j 0) (j 1))
  -- an update index that lands at (k, e) has row k − s and column e
  have hland : ∀ j : (⟨2, ![R, M]⟩ : Shape).Idx, d.resultIdx? j idx = some (ix2 k e) →
      s + (j 0).val = k.val ∧ j 1 = e := by
    intro j hj
    rw [hres j] at hj
    have h2 := Option.some.inj hj
    exact ⟨congrArg Fin.val (congrFun h2 0), congrFun h2 1⟩
  unfold Host.scatter
  refine foldl_write_at _ (ix2 k e)
    (fun n => d.resultIdx? ((⟨2, ![R, M]⟩ : Shape).rowMajor.symm n) idx = some (ix2 k e))
    (fun n => upd ((⟨2, ![R, M]⟩ : Shape).rowMajor.symm n)) ?_ ?_ _ (List.nodup_finRange _) x _ ?_
  · -- a step whose update lands elsewhere, or nowhere, leaves (k, e) alone
    intro r n hn
    have hn' : d.resultIdx? ((⟨2, ![R, M]⟩ : Shape).rowMajor.symm n) idx ≠ some (ix2 k e) := hn
    cases hgn : d.resultIdx? ((⟨2, ![R, M]⟩ : Shape).rowMajor.symm n) idx with
    | none => rfl
    | some i =>
      show (if ix2 k e = i then _ else r (ix2 k e)) = r (ix2 k e)
      rw [if_neg]
      intro hki
      exact hn' (by rw [hgn, hki])
  · -- a step whose update lands at (k, e) writes the update there
    intro r n hn
    have hn' : d.resultIdx? ((⟨2, ![R, M]⟩ : Shape).rowMajor.symm n) idx = some (ix2 k e) := hn
    cases hgn : d.resultIdx? ((⟨2, ![R, M]⟩ : Shape).rowMajor.symm n) idx with
    | none => rw [hgn] at hn'; exact absurd hn' (Option.some_ne_none _).symm
    | some i =>
      rw [hgn] at hn'
      show (if ix2 k e = i then upd ((⟨2, ![R, M]⟩ : Shape).rowMajor.symm n) else r (ix2 k e)) = _
      rw [if_pos (Option.some.inj hn').symm]
  · by_cases h : s ≤ k.val ∧ k.val < s + R
    · -- row k is written: by the one update index (k − s, e)
      rw [dif_pos h]
      refine Or.inl ⟨(⟨2, ![R, M]⟩ : Shape).rowMajor (ix2 ⟨k.val - s, by omega⟩ e), List.mem_finRange _, ?_, ?_, ?_⟩
      · show d.resultIdx? ((⟨2, ![R, M]⟩ : Shape).rowMajor.symm _) idx = some (ix2 k e)
        rw [Equiv.symm_apply_apply, resultIdx?_rows d hw hi hs hv idx s hs0 hfit]
        exact congrArg some (ix2_congr (Fin.ext (show s + (k.val - s) = k.val by omega)) rfl)
      · intro n _ hn
        obtain ⟨h0, h1⟩ := hland _ hn
        refine ((⟨2, ![R, M]⟩ : Shape).rowMajor.symm_apply_eq).1 ?_
        exact (eq_ix2 _).trans (ix2_congr (Fin.ext (show _ = k.val - s by omega)) h1)
      · show _ = upd ((⟨2, ![R, M]⟩ : Shape).rowMajor.symm _)
        rw [Equiv.symm_apply_apply]
    · -- row k is outside the written rows: no update index lands on it
      rw [dif_neg h]
      refine Or.inr ⟨?_, rfl⟩
      intro n _ hn
      obtain ⟨h0, _⟩ := hland _ hn
      have := idx2_lt0 ((⟨2, ![R, M]⟩ : Shape).rowMajor.symm n)
      omega

end Cert.Embed

end
-- ==== Proof.DotRows.lean ====
/-
  A matrix product on the host, rows by columns, read at an entry.
-/
import Idealize.ShloMosaic.PureOps.Ideal.Laws
import Idealize.ShloMosaic.Lib.ValueIdx
import Mathlib.Algebra.BigOperators.Group.Finset.Defs

noncomputable section

namespace Cert.Embed

open Idealize.ShloMosaic Idealize.ShloMosaic.ValueIdx

/-- `l @ r` for an [A × K] and a [K × B] matrix as the host's `dot_general` contracting the left operand's axis 1 with the right
    operand's axis 0 (no batch axes): over the extended reals, entry `(a, b)` is the sum over `k` of `l[a, k] · r[k, b]`. -/
theorem dot_rows_apply {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![A, K]⟩ φ₁) (r : FVec Ideal ⟨2, ![K, B]⟩ φ₂) (a : Fin A) (b : Fin B) :
    Host.dotGeneral d none l r (ix2 a b) = ∑ k : Fin K, l (ix2 a k) * r (ix2 k b) := by
  -- the contraction runs over one axis, of extent K
  have hr : d.contr.rank = 1 := by rw [d.rank_contr, hlc]; rfl
  have hs : d.contr.size ⟨0, by omega⟩ = K := by
    rw [d.size_contr 0 (by rw [hlc]; exact Nat.one_pos), List.getElem_of_eq hlc]
    rfl
  simp only [Host.dotGeneral]
  rw [Ideal.dotGeneral_apply]
  -- re-index the sum by the contraction index's one coordinate
  refine ((Equiv.sum_comp (contrEquiv1 d K hr hs).symm _).symm.trans ?_)
  refine Finset.sum_congr rfl fun k _ => ?_
  -- the left operand is read at (a, k)
  have hl : d.lhsIdx (ix2 a b) ((contrEquiv1 d K hr hs).symm k) = ix2 a k := by
    funext ax
    apply Fin.ext
    match ax with
    | ⟨0, _⟩ =>
      -- axis 0 is the left operand's non-contracting axis: the result's axis 0
      show (d.lhsIdx (ix2 a b) ((contrEquiv1 d K hr hs).symm k) (0 : Fin 2)).val = a.val
      unfold DotDims.lhsIdx
      rw [dif_neg (by rw [hlb]; exact List.not_mem_nil), dif_pos (by rw [hln]; exact List.mem_singleton.mpr rfl)]
      simp only [Fin.val_cast]
      have key : ∀ (p : Nat) (hp : p < 2), p = 0 → ((ix2 a b) ⟨p, hp⟩).val = a.val := fun p hp h => by subst h; rfl
      exact key _ _ (by simp [hlb, hln])
    | ⟨1, _⟩ =>
      -- axis 1 is the contracted one: the contraction index's coordinate
      show (d.lhsIdx (ix2 a b) ((contrEquiv1 d K hr hs).symm k) (1 : Fin 2)).val = k.val
      rw [d.lhsIdx_val_of_single hlc]
      exact contrEquiv1_symm_val d K hr hs k
  -- the right operand is read at (k, b)
  have hrr : d.rhsIdx (ix2 a b) ((contrEquiv1 d K hr hs).symm k) = ix2 k b := by
    funext ax
    apply Fin.ext
    match ax with
    | ⟨0, _⟩ =>
      -- axis 0 is the contracted one
      show (d.rhsIdx (ix2 a b) ((contrEquiv1 d K hr hs).symm k) (0 : Fin 2)).val = k.val
      rw [d.rhsIdx_val_of_single hrc]
      exact contrEquiv1_symm_val d K hr hs k
    | ⟨1, _⟩ =>
      -- axis 1 is the right operand's non-contracting axis: the result's axis 1, after the left operand's one
      show (d.rhsIdx (ix2 a b) ((contrEquiv1 d K hr hs).symm k) (1 : Fin 2)).val = b.val
      unfold DotDims.rhsIdx
      rw [dif_neg (by rw [hrb]; exact List.not_mem_nil), dif_pos (by rw [hrn]; exact List.mem_singleton.mpr rfl)]
      simp only [Fin.val_cast]
      have key : ∀ (p : Nat) (hp : p < 2), p = 1 → ((ix2 a b) ⟨p, hp⟩).val = b.val := fun p hp h => by subst h; rfl
      exact key _ _ (by simp [hlb, hln, hrn])
  rw [hl, hrr]

end Cert.Embed

end
-- ==== Proof.StackRows.lean ====
/-
  The stacked table read at an entry: row `off + j` is row `j` of one of the five small products, and that row's entry `e` is the
  table's row `j` against the matching columns of row `e` of `W`.
-/
import proofs.«411936_j9380208574576_3_alg».proof.Proof.FusedTable
import proofs.«411936_j9380208574576_3_alg».proof.Proof.ScatterRows
import proofs.«411936_j9380208574576_3_alg».proof.Proof.DotRows
import proofs.«411936_j9380208574576_3_alg».proof.Proof.IndexWords
import Idealize.ShloMosaic.Lib.ValueLayout

noncomputable section

namespace Cert.Embed

open Idealize.ShloMosaic Idealize.ShloMosaic.ValueIdx Cert.KernelIdeal Cert.KernelIdeal.Gen

/-- The start row of an update: the literal word, read as a signed integer. -/
theorem start_word (c : Nat) (hc : c < 2 ^ 31) :
    (broadcastInDim S1 ![] bcast_S_S1 (constantI S_ 32 (BitVec.ofNat 32 c)) (ix1 (0 : Fin 1))).toInt = (c : Int) := by
  show (BitVec.ofNat 32 c).toInt = (c : Int)
  have h := toNat_ofNat_small c (by omega)
  rcases toInt_cases (BitVec.ofNat 32 c) with ⟨e, _⟩ | ⟨_, e⟩
  · rw [e, h]
  · rw [h] at e; omega

theorem foldLevel_apply (lt : FVec Ideal S50x25 .f32) (W : FVec Ideal S128x128 .f32) (j : Fin 50) (e : Fin 128) :
    foldLevel lt W (ix2 j e) = ∑ f : Fin 25, lt (ix2 j f) * W (ix2 e ⟨0 + f.val, by have := f.isLt; omega⟩) := by
  unfold foldLevel
  rw [dot_rows_apply _ rfl rfl rfl rfl rfl rfl]
  refine Finset.sum_congr rfl fun f _ => ?_
  rw [transpose_ix2_apply, slice2_axis1_apply 0 W _ e f ⟨0 + f.val, by have := f.isLt; omega⟩ rfl]

theorem foldType_apply (tt : FVec Ideal S2x25 .f32) (W : FVec Ideal S128x128 .f32) (j : Fin 2) (e : Fin 128) :
    foldType tt W (ix2 j e) = ∑ f : Fin 25, tt (ix2 j f) * W (ix2 e ⟨25 + f.val, by have := f.isLt; omega⟩) := by
  unfold foldType
  rw [dot_rows_apply _ rfl rfl rfl rfl rfl rfl]
  refine Finset.sum_congr rfl fun f _ => ?_
  rw [transpose_ix2_apply, slice2_axis1_apply 25 W _ e f ⟨25 + f.val, by have := f.isLt; omega⟩ rfl]

theorem foldFeature_apply (ft : FVec Ideal S2x25 .f32) (W : FVec Ideal S128x128 .f32) (j : Fin 2) (e : Fin 128) :
    foldFeature ft W (ix2 j e) = ∑ f : Fin 25, ft (ix2 j f) * W (ix2 e ⟨50 + f.val, by have := f.isLt; omega⟩) := by
  unfold foldFeature
  rw [dot_rows_apply _ rfl rfl rfl rfl rfl rfl]
  refine Finset.sum_congr rfl fun f _ => ?_
  rw [transpose_ix2_apply, slice2_axis1_apply 50 W _ e f ⟨50 + f.val, by have := f.isLt; omega⟩ rfl]

theorem foldExchange_apply (et : FVec Ideal S3x25 .f32) (W : FVec Ideal S128x128 .f32) (j : Fin 3) (e : Fin 128) :
    foldExchange et W (ix2 j e) = ∑ f : Fin 25, et (ix2 j f) * W (ix2 e ⟨75 + f.val, by have := f.isLt; omega⟩) := by
  unfold foldExchange
  rw [dot_rows_apply _ rfl rfl rfl rfl rfl rfl]
  refine Finset.sum_congr rfl fun f _ => ?_
  rw [transpose_ix2_apply, slice2_axis1_apply 75 W _ e f ⟨75 + f.val, by have := f.isLt; omega⟩ rfl]

theorem foldPair_apply (pt : FVec Ideal S20x28 .f32) (W : FVec Ideal S128x128 .f32) (j : Fin 20) (e : Fin 128) :
    foldPair pt W (ix2 j e) = ∑ f : Fin 28, pt (ix2 j f) * W (ix2 e ⟨100 + f.val, by have := f.isLt; omega⟩) := by
  unfold foldPair
  rw [dot_rows_apply _ rfl rfl rfl rfl rfl rfl]
  refine Finset.sum_congr rfl fun f _ => ?_
  rw [transpose_ix2_apply, slice2_axis1_apply 100 W _ e f ⟨100 + f.val, by have := f.isLt; omega⟩ rfl]

end Cert.Embed

end
-- ==== Proof.StackRead.lean ====
/-
  The stacked table read at a row: the five row ranges hold the five small products.
-/
import proofs.«411936_j9380208574576_3_alg».proof.Proof.StackRows

noncomputable section

namespace Cert.Embed

open Idealize.ShloMosaic Idealize.ShloMosaic.ValueIdx Cert.KernelIdeal Cert.KernelIdeal.Gen

/-- Over the extended reals a change of float format is the identity. -/
theorem narrow_apply {s : Shape} (x : FVec Ideal s .f32) (h : FTy.bits .bf16 < FTy.bits .f32) (i : s.Idx) :
    truncf (F := Ideal) .bf16 x h i = x i := rfl

variable (lt : FVec Ideal S50x25 .f32) (tt ft : FVec Ideal S2x25 .f32) (et : FVec Ideal S3x25 .f32) (pt : FVec Ideal S20x28 .f32)
  (W : FVec Ideal S128x128 .f32)

/-- Rows 57–76 hold the pair product. -/
theorem stack_pair (j : Fin 20) (k e : Fin 128) (hk : k.val = j.val + 57) :
    stack lt tt ft et pt W (ix2 k e) = foldPair pt W (ix2 j e) := by
  unfold stack
  rw [narrow_apply]
  refine (scatter_rows_apply scatter_S128x128_S1_S20x128_01_n_0_0 rfl rfl rfl rfl _ _ _ 57 (start_word 57 (by norm_num)) (by omega) k e).trans ?_
  rw [dif_pos (by omega)]
  exact congrArg (foldPair pt W) (congrArg (fun a => ix2 a e) (Fin.ext (by show k.val - 57 = j.val; omega)))

/-- Rows 54–56 hold the exchange product. -/
theorem stack_exchange (j : Fin 3) (k e : Fin 128) (hk : k.val = j.val + 54) :
    stack lt tt ft et pt W (ix2 k e) = foldExchange et W (ix2 j e) := by
  unfold stack
  rw [narrow_apply]
  refine (scatter_rows_apply scatter_S128x128_S1_S20x128_01_n_0_0 rfl rfl rfl rfl _ _ _ 57 (start_word 57 (by norm_num)) (by omega) k e).trans ?_
  rw [dif_neg (by omega)]
  refine (scatter_rows_apply scatter_S128x128_S1_S3x128_01_n_0_0 rfl rfl rfl rfl _ _ _ 54 (start_word 54 (by norm_num)) (by omega) k e).trans ?_
  rw [dif_pos (by omega)]
  exact congrArg (foldExchange et W) (congrArg (fun a => ix2 a e) (Fin.ext (by show k.val - 54 = j.val; omega)))

/-- Rows 52–53 hold the feature product. -/
theorem stack_feature (j : Fin 2) (k e : Fin 128) (hk : k.val = j.val + 52) :
    stack lt tt ft et pt W (ix2 k e) = foldFeature ft W (ix2 j e) := by
  unfold stack
  rw [narrow_apply]
  refine (scatter_rows_apply scatter_S128x128_S1_S20x128_01_n_0_0 rfl rfl rfl rfl _ _ _ 57 (start_word 57 (by norm_num)) (by omega) k e).trans ?_
  rw [dif_neg (by omega)]
  refine (scatter_rows_apply scatter_S128x128_S1_S3x128_01_n_0_0 rfl rfl rfl rfl _ _ _ 54 (start_word 54 (by norm_num)) (by omega) k e).trans ?_
  rw [dif_neg (by omega)]
  refine (scatter_rows_apply scatter_S128x128_S1_S2x128_01_n_0_0 rfl rfl rfl rfl _ _ _ 52 (start_word 52 (by norm_num)) (by omega) k e).trans ?_
  rw [dif_pos (by omega)]
  exact congrArg (foldFeature ft W) (congrArg (fun a => ix2 a e) (Fin.ext (by show k.val - 52 = j.val; omega)))

/-- Rows 50–51 hold the type product. -/
theorem stack_type (j : Fin 2) (k e : Fin 128) (hk : k.val = j.val + 50) :
    stack lt tt ft et pt W (ix2 k e) = foldType tt W (ix2 j e) := by
  unfold stack
  rw [narrow_apply]
  refine (scatter_rows_apply scatter_S128x128_S1_S20x128_01_n_0_0 rfl rfl rfl rfl _ _ _ 57 (start_word 57 (by norm_num)) (by omega) k e).trans ?_
  rw [dif_neg (by omega)]
  refine (scatter_rows_apply scatter_S128x128_S1_S3x128_01_n_0_0 rfl rfl rfl rfl _ _ _ 54 (start_word 54 (by norm_num)) (by omega) k e).trans ?_
  rw [dif_neg (by omega)]
  refine (scatter_rows_apply scatter_S128x128_S1_S2x128_01_n_0_0 rfl rfl rfl rfl _ _ _ 52 (start_word 52 (by norm_num)) (by omega) k e).trans ?_
  rw [dif_neg (by omega)]
  refine (scatter_rows_apply scatter_S128x128_S1_S2x128_01_n_0_0 rfl rfl rfl rfl _ _ _ 50 (start_word 50 (by norm_num)) (by omega) k e).trans ?_
  rw [dif_pos (by omega)]
  exact congrArg (foldType tt W) (congrArg (fun a => ix2 a e) (Fin.ext (by show k.val - 50 = j.val; omega)))

/-- Rows 0–49 hold the level product. -/
theorem stack_level (j : Fin 50) (k e : Fin 128) (hk : k.val = j.val + 0) :
    stack lt tt ft et pt W (ix2 k e) = foldLevel lt W (ix2 j e) := by
  unfold stack
  rw [narrow_apply]
  refine (scatter_rows_apply scatter_S128x128_S1_S20x128_01_n_0_0 rfl rfl rfl rfl _ _ _ 57 (start_word 57 (by norm_num)) (by omega) k e).trans ?_
  rw [dif_neg (by omega)]
  refine (scatter_rows_apply scatter_S128x128_S1_S3x128_01_n_0_0 rfl rfl rfl rfl _ _ _ 54 (start_word 54 (by norm_num)) (by omega) k e).trans ?_
  rw [dif_neg (by omega)]
  refine (scatter_rows_apply scatter_S128x128_S1_S2x128_01_n_0_0 rfl rfl rfl rfl _ _ _ 52 (start_word 52 (by norm_num)) (by omega) k e).trans ?_
  rw [dif_neg (by omega)]
  refine (scatter_rows_apply scatter_S128x128_S1_S2x128_01_n_0_0 rfl rfl rfl rfl _ _ _ 50 (start_word 50 (by norm_num)) (by omega) k e).trans ?_
  rw [dif_neg (by omega)]
  refine (scatter_rows_apply scatter_S128x128_S1_S50x128_01_n_0_0 rfl rfl rfl rfl _ _ _ 0 (start_word 0 (by norm_num)) (by omega) k e).trans ?_
  rw [dif_pos (by omega)]
  exact congrArg (foldLevel lt W) (congrArg (fun a => ix2 a e) (Fin.ext (by show k.val - 0 = j.val; omega)))

end Cert.Embed

end
-- ==== Proof.KernelValue.lean ====
/-
  The kernel's result array is the specification.

  Grid point `t` stages rows `8192·t … 8192·t + 8191` of the five index arrays, the whole stacked table and the whole bias, and
  writes back rows `8192·t …` of the result; row `p` of its block is the 0/1 row of row `8192·t + p`'s five words against the
  stacked table, plus the bias. A 0/1 row with five ones picks five rows of the table; row `off + j` of the table is row `j` of
  one table's product with its column block of `W`. The 128 blocks tile the result.
-/
import proofs.«411936_j9380208574576_3_alg».proof.Proof.Gen.KernelIdeal.Value
import proofs.«411936_j9380208574576_3_alg».proof.Proof.Spec
import proofs.«411936_j9380208574576_3_alg».proof.Proof.KernelBody
import proofs.«411936_j9380208574576_3_alg».proof.Proof.StackRead

noncomputable section

namespace Cert.Embed

open Idealize.ShloMosaic Idealize.ShloMosaic.TcCoe Idealize.SL.Sem Idealize.ShloMosaic.ValueIdx
open Cert.KernelIdeal Cert.KernelIdeal.Gen
open Idealize.ShloMosaic.Pipeline (Dat)

/-- The five ones of the 0/1 row pick five entries of a column. -/
theorem hot_sum (w0 w1 w2 w3 w4 : BitVec 32) (ms : Fin 128 → EReal) :
    ∑ k : Fin 128, hot w0 w1 w2 w3 w4 k * ms k
      = ms ⟨min w0.toInt.toNat 49 + 0, by omega⟩ + ms ⟨min w1.toInt.toNat 1 + 50, by omega⟩ + ms ⟨min w2.toInt.toNat 1 + 52, by omega⟩
        + ms ⟨min w3.toInt.toNat 2 + 54, by omega⟩ + ms ⟨min w4.toInt.toNat 19 + 57, by omega⟩ := by
  refine onehot_sum _ _ _ _ _ ?_ ?_ ?_ ?_ ?_ ?_ ?_ ?_ ?_ ?_ _ ms ?_
  all_goals first
    | (intro h; have := congrArg Fin.val h; simp only at this; omega)
    | (intro k; unfold hot; simp only [Fin.ext_iff])

variable (m : (ℓ : Loc nD τ sig) → Buf (Elt Ideal) ℓ)

/-- The specification at the launch memory of core `c`. -/
abbrev spec (c : Dev nD) : S1048576x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the five index windows and the result move with the point, the table and the bias stay. -/
theorem idx_facts : ∀ t : Fin cfg0.N, win0_0.index t (0 : Fin 1) = t.val ∧ win0_1.index t (0 : Fin 1) = t.val
    ∧ win0_2.index t (0 : Fin 1) = t.val ∧ win0_3.index t (0 : Fin 1) = t.val ∧ win0_4.index t (0 : Fin 1) = t.val
    ∧ win0_5.index t (0 : Fin 2) = 0 ∧ win0_5.index t (1 : Fin 2) = 0 ∧ win0_6.index t (0 : Fin 1) = 0
    ∧ win0_7.index t (0 : Fin 2) = t.val ∧ win0_7.index t (1 : Fin 2) = 0 :=
  (by decide +kernel : ∀ t : Fin grid0.N, _)

/-- Row `p` of point `t`'s block of the level indices is row `8192·t + p` of the array. -/
theorem blk_level (c : Dev nD) (t : Fin cfg0.N) (p : Fin 8192) (R : Fin 1048576) (hR : R.val = t.val * 8192 + p.val) :
    iblk m c 0 t (ix1 p) = m ((c : Thread nD τ).loc main_arg7) (ix1 R) := by
  rw [← V_main_arg7 m c]
  show V m c main_arg7 (((cfg0.win 0).blk t).view.emb (ix1 p)) = V m c main_arg7 (ix1 R)
  refine congrArg _ (funext fun a => Fin.ext ?_)
  match a with
  | ⟨0, _⟩ =>
    show win0_0.index t (0 : Fin 1) * 8192 + 1 * p.val = R.val
    rw [(idx_facts t).1, hR]; omega

theorem blk_type (c : Dev nD) (t : Fin cfg0.N) (p : Fin 8192) (R : Fin 1048576) (hR : R.val = t.val * 8192 + p.val) :
    iblk m c 1 t (ix1 p) = m ((c : Thread nD τ).loc main_arg8) (ix1 R) := by
  rw [← V_main_arg8 m c]
  show V m c main_arg8 (((cfg0.win 1).blk t).view.emb (ix1 p)) = V m c main_arg8 (ix1 R)
  refine congrArg _ (funext fun a => Fin.ext ?_)
  match a with
  | ⟨0, _⟩ =>
    show win0_1.index t (0 : Fin 1) * 8192 + 1 * p.val = R.val
    rw [(idx_facts t).2.1, hR]; omega

theorem blk_feature (c : Dev nD) (t : Fin cfg0.N) (p : Fin 8192) (R : Fin 1048576) (hR : R.val = t.val * 8192 + p.val) :
    iblk m c 2 t (ix1 p) = m ((c : Thread nD τ).loc main_arg9) (ix1 R) := by
  rw [← V_main_arg9 m c]
  show V m c main_arg9 (((cfg0.win 2).blk t).view.emb (ix1 p)) = V m c main_arg9 (ix1 R)
  refine congrArg _ (funext fun a => Fin.ext ?_)
  match a with
  | ⟨0, _⟩ =>
    show win0_2.index t (0 : Fin 1) * 8192 + 1 * p.val = R.val
    rw [(idx_facts t).2.2.1, hR]; omega

theorem blk_exchange (c : Dev nD) (t : Fin cfg0.N) (p : Fin 8192) (R : Fin 1048576) (hR : R.val = t.val * 8192 + p.val) :
    iblk m c 3 t (ix1 p) = m ((c : Thread nD τ).loc main_arg10) (ix1 R) := by
  rw [← V_main_arg10 m c]
  show V m c main_arg10 (((cfg0.win 3).blk t).view.emb (ix1 p)) = V m c main_arg10 (ix1 R)
  refine congrArg _ (funext fun a => Fin.ext ?_)
  match a with
  | ⟨0, _⟩ =>
    show win0_3.index t (0 : Fin 1) * 8192 + 1 * p.val = R.val
    rw [(idx_facts t).2.2.2.1, hR]; omega

theorem blk_pair (c : Dev nD) (t : Fin cfg0.N) (p : Fin 8192) (R : Fin 1048576) (hR : R.val = t.val * 8192 + p.val) :
    iblk m c 4 t (ix1 p) = m ((c : Thread nD τ).loc main_arg11) (ix1 R) := by
  rw [← V_main_arg11 m c]
  show V m c main_arg11 (((cfg0.win 4).blk t).view.emb (ix1 p)) = V m c main_arg11 (ix1 R)
  refine congrArg _ (funext fun a => Fin.ext ?_)
  match a with
  | ⟨0, _⟩ =>
    show win0_4.index t (0 : Fin 1) * 8192 + 1 * p.val = R.val
    rw [(idx_facts t).2.2.2.2.1, hR]; omega

/-- Every point stages the whole stacked table. -/
theorem blk_table (c : Dev nD) (t : Fin cfg0.N) (k e : Fin 128) :
    iblk m c 5 t (ix2 k e) = stack (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 k e) := by
  rw [← table_eq m c]
  show V m c main_v26 (((cfg0.win 5).blk t).view.emb (ix2 k e)) = V m c main_v26 (ix2 k e)
  refine congrArg _ (funext fun a => Fin.ext ?_)
  match a with
  | ⟨0, _⟩ =>
    show win0_5.index t (0 : Fin 2) * 128 + 1 * k.val = k.val
    rw [(idx_facts t).2.2.2.2.2.1]; omega
  | ⟨1, _⟩ =>
    show win0_5.index t (1 : Fin 2) * 128 + 1 * e.val = e.val
    rw [(idx_facts t).2.2.2.2.2.2.1]; omega

/-- Every point stages the whole bias. -/
theorem blk_bias (c : Dev nD) (t : Fin cfg0.N) (e : Fin 128) :
    iblk m c 6 t (ix1 e) = m ((c : Thread nD τ).loc main_arg6) (ix1 e) := by
  rw [← V_main_arg6 m c]
  show V m c main_arg6 (((cfg0.win 6).blk t).view.emb (ix1 e)) = V m c main_arg6 (ix1 e)
  refine congrArg _ (funext fun a => Fin.ext ?_)
  match a with
  | ⟨0, _⟩ =>
    show win0_6.index t (0 : Fin 1) * 128 + 1 * e.val = e.val
    rw [(idx_facts t).2.2.2.2.2.2.2.1]; omega

/-- Entry `(p, e)` of point `t`'s result block is entry `(8192·t + p, e)` of the result. -/
theorem blk_out (t : Fin cfg0.N) (p : Fin 8192) (e : Fin 128) (R : Fin 1048576) (hR : R.val = t.val * 8192 + p.val) :
    ((cfg0.win 7).blk t).view.emb (ix2 p e) = (ix2 R e : S1048576x128.Idx) := by
  refine funext fun a => Fin.ext ?_
  match a with
  | ⟨0, _⟩ =>
    show win0_7.index t (0 : Fin 2) * 8192 + 1 * p.val = R.val
    rw [(idx_facts t).2.2.2.2.2.2.2.2.1, hR]; omega
  | ⟨1, _⟩ =>
    show win0_7.index t (1 : Fin 2) * 128 + 1 * e.val = e.val
    rw [(idx_facts t).2.2.2.2.2.2.2.2.2]; omega

section Rows
variable (lt : FVec Ideal S50x25 .f32) (tt ft : FVec Ideal S2x25 .f32) (et : FVec Ideal S3x25 .f32) (pt : FVec Ideal S20x28 .f32)
  (W : FVec Ideal S128x128 .f32)

/-- The row of the stacked table the level word selects is the level table's share. -/
theorem pick_level (w : BitVec 32) (e : Fin 128) :
    stack lt tt ft et pt W (ix2 ⟨min w.toInt.toNat 49 + 0, by omega⟩ e) = term 50 25 (by decide) 0 (by decide) lt W w e := by
  rw [stack_level lt tt ft et pt W (rowOf 50 (by decide) w) _ e rfl, foldLevel_apply]
  rfl
theorem pick_type (w : BitVec 32) (e : Fin 128) :
    stack lt tt ft et pt W (ix2 ⟨min w.toInt.toNat 1 + 50, by omega⟩ e) = term 2 25 (by decide) 25 (by decide) tt W w e := by
  rw [stack_type lt tt ft et pt W (rowOf 2 (by decide) w) _ e rfl, foldType_apply]
  rfl
theorem pick_feature (w : BitVec 32) (e : Fin 128) :
    stack lt tt ft et pt W (ix2 ⟨min w.toInt.toNat 1 + 52, by omega⟩ e) = term 2 25 (by decide) 50 (by decide) ft W w e := by
  rw [stack_feature lt tt ft et pt W (rowOf 2 (by decide) w) _ e rfl, foldFeature_apply]
  rfl
theorem pick_exchange (w : BitVec 32) (e : Fin 128) :
    stack lt tt ft et pt W (ix2 ⟨min w.toInt.toNat 2 + 54, by omega⟩ e) = term 3 25 (by decide) 75 (by decide) et W w e := by
  rw [stack_exchange lt tt ft et pt W (rowOf 3 (by decide) w) _ e rfl, foldExchange_apply]
  rfl
theorem pick_pair (w : BitVec 32) (e : Fin 128) :
    stack lt tt ft et pt W (ix2 ⟨min w.toInt.toNat 19 + 57, by omega⟩ e) = term 20 28 (by decide) 100 (by decide) pt W w e := by
  rw [stack_pair lt tt ft et pt W (rowOf 20 (by decide) w) _ e rfl, foldPair_apply]
  rfl

/-- A row's 0/1 row against the stacked table, plus the bias: the five shares and the bias. -/
theorem row_value (b : FVec Ideal S128 .f32) (w0 w1 w2 w3 w4 : BitVec 32) (e : Fin 128) :
    (∑ k : Fin 128, hot w0 w1 w2 w3 w4 k * stack lt tt ft et pt W (ix2 k e)) + b (ix1 e)
      = term 50 25 (by decide) 0 (by decide) lt W w0 e + term 2 25 (by decide) 25 (by decide) tt W w1 e
        + term 2 25 (by decide) 50 (by decide) ft W w2 e + term 3 25 (by decide) 75 (by decide) et W w3 e
        + term 20 28 (by decide) 100 (by decide) pt W w4 e + b (ix1 e) := by
  rw [hot_sum w0 w1 w2 w3 w4 (fun k => stack lt tt ft et pt W (ix2 k e))]
  rw [pick_level, pick_type, pick_feature, pick_exchange, pick_pair]

end Rows

/-- WHAT POINT `t` WRITES BACK is block `t` of the specification. -/
theorem flushed_eq (c : Dev nD) (t : Fin cfg0.N) :
    (dats m 0 c).flushed 7 t = ((cfg0.win 7).blk t).view.read (Elt Ideal) (spec m c) := by
  rw [Cert.KernelIdeal.Value.flushed7]
  unfold out0_7
  rw [View.canon_unit_zero hz2]
  simp only [View.ld_unit_zero (S := S8192) hz1, View.ld_unit_zero (S := S128x128) hz2, View.ld_unit_zero (S := S128) hz1]
  funext y
  obtain ⟨p, e, rfl⟩ : ∃ (p : Fin 8192) (e : Fin 128), y = ix2 p e := ⟨y 0, y 1, eq_ix2 y⟩
  have ht : t.val < 128 := t.isLt
  have hlt : t.val * 8192 + p.val < 1048576 := by have := p.isLt; omega
  show k0_pay1 (F := Ideal) (iota .tc S8192x128 32 [1] iota_S8192x128_d1_w32) (k0_pay2 (iblk m c 2 t)) (k0_pay3 (iblk m c 3 t))
      (k0_pay4 (iblk m c 4 t)) (k0_pay5 (iblk m c 0 t) (iblk m c 1 t)) k0_pay6 (iblk m c 5 t) (iblk m c 6 t) (ix2 p e)
    = spec m c (((cfg0.win 7).blk t).view.emb (ix2 p e))
  rw [blk_out t p e ⟨t.val * 8192 + p.val, hlt⟩ rfl]
  refine (body_apply (iblk m c 0 t) (iblk m c 1 t) (iblk m c 2 t) (iblk m c 3 t) (iblk m c 4 t) (iblk m c 5 t) (iblk m c 6 t) p e).trans ?_
  rw [blk_level m c t p ⟨t.val * 8192 + p.val, hlt⟩ rfl, blk_type m c t p ⟨t.val * 8192 + p.val, hlt⟩ rfl,
    blk_feature m c t p ⟨t.val * 8192 + p.val, hlt⟩ rfl, blk_exchange m c t p ⟨t.val * 8192 + p.val, hlt⟩ rfl,
    blk_pair m c t p ⟨t.val * 8192 + p.val, hlt⟩ rfl, blk_bias m c t e]
  simp only [blk_table m c t]
  exact row_value _ _ _ _ _ _ _ _ _ _ _ _ e

/-- Every block of rows is some point's. -/
theorem idx_onto : ∀ q : Fin 128, ∃ t : Fin cfg0.N, win0_7.index t = ![q.val, 0] :=
  (by decide +kernel : ∀ q : Fin 128, ∃ t : Fin grid0.N, win0_7.index t = ![q.val, 0])

/-- An index of the result is in point `t`'s block iff each coordinate is in the block's range on its axis. -/
theorem mem_blk (t : Fin cfg0.N) (i : S1048576x128.Idx) :
    i ∈ ((cfg0.win 7).blk t).view.set ↔ ∀ a : Fin 2, win0_7.index t a * S8192x128.size a ≤ (i a).val ∧ (i a).val < win0_7.index t a * S8192x128.size a + S8192x128.size a := by
  show i ∈ ((View.whole main_v27).slice (win0_7.rect t)).set ↔ _
  rw [View.set_slice_whole, Rect.mem_set_unit]
  exact Iff.rfl

/-- The 128 blocks of 8192 rows tile the result. -/
theorem cover (i : S1048576x128.Idx) : ∃ t : Fin cfg0.N, (cfg0.win 7).flush t = true ∧ i ∈ ((cfg0.win 7).blk t).view.set := by
  have hi0 : (i 0).val < 1048576 := (i 0).isLt
  have hi1 : (i 1).val < 128 := (i 1).isLt
  obtain ⟨t, ht⟩ := idx_onto ⟨(i 0).val / 8192, by omega⟩
  have q0 : win0_7.index t (0 : Fin 2) = (i 0).val / 8192 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 8192 ≤ (i 0).val ∧ (i 0).val < win0_7.index t (0 : Fin 2) * 8192 + 8192; omega
  | ⟨1, _⟩ => show win0_7.index t (1 : Fin 2) * 128 ≤ (i 1).val ∧ (i 1).val < win0_7.index t (1 : Fin 2) * 128 + 128; omega

/-- THE RESULT ARRAY after the run is the specification. -/
theorem final (c : Dev nD) : (dats m 0 c).arrAt 7 cfg0.N = spec m c :=
  (dats m 0 c).arrAt_eq_of_cover 7 (spec m c) (fun t _ => flushed_eq m c t) cover

/-- The kernel's run, read: the result at the specification, the arguments unchanged. -/
theorem kernel_run (ρ : Dev nD → PrngReg) :
    θ_run defs (onTc (τ := τ) (main (F := Ideal))) ⟨m, fun _ => 0, ρ⟩ fun r => ∀ c : Dev nD,
      r.2.mem ((c : Thread nD τ).loc main_v27) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.Embed

end
-- ==== Proof.GatherRows.lean ====
/-
  A gather of whole rows of a table, read at an index.
-/
import Idealize.ShloMosaic.PureOps.ShapeOps
import Idealize.ShloMosaic.Lib.ValueIdx

noncomputable section

namespace Cert.Embed

open Idealize.ShloMosaic Idealize.ShloMosaic.ValueIdx

/-- An entry of a list known to be a singleton is that singleton's element. -/
theorem getElem_of_eq_singleton {β : Type} {l : List β} {v : β} (hl : l = [v]) (i : Nat) (h : i < l.length) :
    l[i]'h = v := by
  subst hl
  have hi : i = 0 := by simpa using h
  subst hi
  rfl

/-- `table[idx]` over an [N × C] table and a column of `n` positions, as StableHLO's gather (axis 0 collapsed and start-indexed,
    axis 1 the one offset axis, the index vector on axis 1): result entry `(r, f)` is the table's entry `f` of the row that position
    `r`'s start index names, the index read SIGNED and CLAMPED into the table. -/
theorem gather_rows_apply {α : Type} {N C n w : Nat}
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (r : Fin n) (f : Fin C) (hN : 0 < N) :
    Host.gather d x idx (ix2 r f) = x (ix2 ⟨min (idx (ix2 r 0)).toInt.toNat (N - 1), by omega⟩ f) := by
  unfold Host.gather
  congr 1
  funext a
  apply Fin.ext
  have hb : ∀ a : Fin 2, a ∉ d.operandBatchingDims := by intro a; rw [hob]; exact List.not_mem_nil
  have hbd : d.batchDims = [0] := by
    show Shape.kept _ d.offsetDims = [0]
    rw [hoff]; rfl
  have hsk : d.sKept = [1] := by
    show Shape.kept _ (d.collapsedSliceDims ++ d.operandBatchingDims) = [1]
    rw [hcoll, hob]; rfl
  match a with
  | ⟨0, _⟩ =>
    -- axis 0: collapsed and start-indexed; no batch and no offset coordinate
    have hk : (0 : Fin 2) ∉ d.sKept := by rw [hsk]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r f) idx 0 + d.batchCoord (ix2 r f) 0 + d.offCoord (ix2 r f) 0 = min (idx (ix2 r 0)).toInt.toNat (N - 1)
    rw [GatherDims.batchCoord_eq_zero _ _ _ (hb 0), GatherDims.offCoord_eq_zero _ _ _ hk]
    simp only [Nat.add_zero]
    unfold GatherDims.start
    rw [dif_pos hm]
    -- the start-indices index read for component 0 is (r, 0)
    have hsi : d.siIdx (ix2 r f) ⟨List.idxOf (0 : Fin 2) d.startIndexMap, List.idxOf_lt_length_iff.2 hm⟩ = ix2 r 0 := by
      funext b
      match b with
      | ⟨0, _⟩ =>
        -- the result's batch axis 0 reads the start indices' axis 0
        unfold GatherDims.siIdx
        rw [dif_neg (by rw [hivd]; simp)]
        unfold GatherDims.siCoord
        apply Fin.ext
        simp only [Fin.val_cast]
        rw [getElem_of_eq_singleton hbd]
        rfl
      | ⟨1, _⟩ =>
        -- the index vector's axis carries the component's number, 0
        unfold GatherDims.siIdx
        rw [dif_pos (by rw [hivd])]
        apply Fin.ext
        show List.idxOf (0 : Fin 2) d.startIndexMap = 0
        rw [hsim]; simp
    rw [hsi, hsl]
    rfl
  | ⟨1, _⟩ =>
    -- axis 1: not start-indexed, not batching; the offset coordinate is the result's coordinate on its offset axis 1
    have hk : (1 : Fin 2) ∈ d.sKept := by rw [hsk]; exact List.mem_singleton.mpr rfl
    have hm : (1 : Fin 2) ∉ d.startIndexMap := by rw [hsim]; simp
    show d.start (ix2 r f) idx 1 + d.batchCoord (ix2 r f) 1 + d.offCoord (ix2 r f) 1 = f.val
    rw [GatherDims.batchCoord_eq_zero _ _ _ (hb 1)]
    unfold GatherDims.start GatherDims.offCoord
    rw [dif_neg hm, dif_pos hk, getElem_of_eq_singleton hoff]
    simp only [Nat.add_zero, Nat.zero_add]
    rfl

end Cert.Embed

end
-- ==== Proof.ConcatCols.lean ====
/-
  Five column blocks laid side by side, read at an index.
-/
import Idealize.ShloMosaic.PureOps.ShapeOps
import Idealize.ShloMosaic.Lib.ValueIdx
import Idealize.ShloMosaic.Lib.Pipeline.Value

noncomputable section

namespace Cert.Embed

open Idealize.ShloMosaic Idealize.ShloMosaic.ValueIdx

/-- The concatenation along the columns of four [n × 25] blocks and one [n × 28] block: column `q` of the result is column
    `q` less the widths before it of the block whose span holds `q`. -/
theorem concat5_apply {α : Type} {n : Nat}
    (u0 u1 u2 u3 : (⟨2, ![n, 25]⟩ : Shape).Idx → α) (u4 : (⟨2, ![n, 28]⟩ : Shape).Idx → α)
    (h : Shape.Concatenates (([⟨⟨2, ![n, 25]⟩, u0⟩, ⟨⟨2, ![n, 25]⟩, u1⟩, ⟨⟨2, ![n, 25]⟩, u2⟩, ⟨⟨2, ![n, 25]⟩, u3⟩, ⟨⟨2, ![n, 28]⟩, u4⟩] :
      List ((s : Shape) × (s.Idx → α))).map (·.1)) ⟨2, ![n, 128]⟩ 1)
    (r : Fin n) (q : Fin 128) :
    concatenate ⟨2, ![n, 128]⟩ 1 [⟨⟨2, ![n, 25]⟩, u0⟩, ⟨⟨2, ![n, 25]⟩, u1⟩, ⟨⟨2, ![n, 25]⟩, u2⟩, ⟨⟨2, ![n, 25]⟩, u3⟩, ⟨⟨2, ![n, 28]⟩, u4⟩] h (ix2 r q)
      = if h0 : q.val < 25 then u0 (ix2 r ⟨q.val, h0⟩)
        else if h1 : q.val < 50 then u1 (ix2 r ⟨q.val - 25, by omega⟩)
        else if h2 : q.val < 75 then u2 (ix2 r ⟨q.val - 50, by omega⟩)
        else if h3 : q.val < 100 then u3 (ix2 r ⟨q.val - 75, by omega⟩)
        else u4 (ix2 r ⟨q.val - 100, by have := q.isLt; omega⟩) := by
  -- one case per block: the block whose span of columns holds `q`, read at `q` less the widths before it;
  -- off the column axis (the row) the coordinates agree
  by_cases h0 : q.val < 25
  · rw [dif_pos h0]
    exact concatenate_apply_piece (1 : Fin 2) _ h (ix2 r q) 0 (by simp) ⟨2, ![n, 25]⟩ u0 rfl rfl 0 rfl (ix2 r ⟨q.val, h0⟩)
      (fun b hb => by
        match b with
        | ⟨0, _⟩ => rfl
        | ⟨1, _⟩ => exact absurd rfl hb)
      (by show 0 + q.val = q.val; omega)
  rw [dif_neg h0]
  by_cases h1 : q.val < 50
  · rw [dif_pos h1]
    exact concatenate_apply_piece (1 : Fin 2) _ h (ix2 r q) 1 (by simp) ⟨2, ![n, 25]⟩ u1 rfl rfl 25 rfl (ix2 r ⟨q.val - 25, by omega⟩)
      (fun b hb => by
        match b with
        | ⟨0, _⟩ => rfl
        | ⟨1, _⟩ => exact absurd rfl hb)
      (by show 25 + (q.val - 25) = q.val; omega)
  rw [dif_neg h1]
  by_cases h2 : q.val < 75
  · rw [dif_pos h2]
    exact concatenate_apply_piece (1 : Fin 2) _ h (ix2 r q) 2 (by simp) ⟨2, ![n, 25]⟩ u2 rfl rfl 50 rfl (ix2 r ⟨q.val - 50, by omega⟩)
      (fun b hb => by
        match b with
        | ⟨0, _⟩ => rfl
        | ⟨1, _⟩ => exact absurd rfl hb)
      (by show 50 + (q.val - 50) = q.val; omega)
  rw [dif_neg h2]
  by_cases h3 : q.val < 100
  · rw [dif_pos h3]
    exact concatenate_apply_piece (1 : Fin 2) _ h (ix2 r q) 3 (by simp) ⟨2, ![n, 25]⟩ u3 rfl rfl 75 rfl (ix2 r ⟨q.val - 75, by omega⟩)
      (fun b hb => by
        match b with
        | ⟨0, _⟩ => rfl
        | ⟨1, _⟩ => exact absurd rfl hb)
      (by show 75 + (q.val - 75) = q.val; omega)
  rw [dif_neg h3]
  have hq := q.isLt
  exact concatenate_apply_piece (1 : Fin 2) _ h (ix2 r q) 4 (by simp) ⟨2, ![n, 28]⟩ u4 rfl rfl 100 rfl (ix2 r ⟨q.val - 100, by omega⟩)
    (fun b hb => by
      match b with
      | ⟨0, _⟩ => rfl
      | ⟨1, _⟩ => exact absurd rfl hb)
    (by show 100 + (q.val - 100) = q.val; omega)

end Cert.Embed

end
-- ==== Proof.RefValue.lean ====
/-
  The reference's result, index by index, is the specification.

  Entry `(r, e)` of the reference is `∑ k<128 combined[r, k]·W[e, k] + b[e]`, where row `r` of `combined` is the five gathered
  rows laid side by side. The sum is cut at the columns 25, 50, 75, 100 where the blocks meet; on each span the concatenation
  reads one gathered block, the gather reads the table's row that the (wrapped, then clamped) index word names, and the wrap of a
  non-negative word is the word. Only the commutative-monoid laws of `+` are used.
-/
import proofs.«411936_j9380208574576_3_alg».proof.Proof.Gen.ReferenceIdeal.Read
import proofs.«411936_j9380208574576_3_alg».proof.Proof.Spec
import proofs.«411936_j9380208574576_3_alg».proof.Proof.GatherRows
import proofs.«411936_j9380208574576_3_alg».proof.Proof.ConcatCols
import proofs.«411936_j9380208574576_3_alg».proof.Proof.IndexWords

noncomputable section

namespace Cert.Embed

open Idealize.ShloMosaic Idealize.ShloMosaic.ValueIdx Cert.ReferenceIdeal Cert.ReferenceIdeal.Gen Cert.ReferenceIdeal.Read

/-! ## The five columns of start indices

Each index array is wrapped (`w < 0 ? w + n : w`) and laid out as a column. Where every word is non-negative the wrap is the
identity, so the column's entry at row `r` is the array's word `r`. -/

theorem word7 (x7 : (⟨S1048576, .i32⟩ : BufTy).Contents (Elt Ideal)) (h : ∀ i, 0 ≤ (x7 i).toInt) (r : Fin 1048576) :
    val_main_v5 (F := Ideal) x7 (ix2 r 0) = x7 (ix1 r) := by
  rw [val_main_v5_apply, val_main_v4_apply, val_main_v1_apply, val_main_v3_apply, val_main_v0_apply, val_main_v2_apply, val_main_c_apply, val_main_c_0_apply]
  have e : idx_main_v5 (ix2 r 0) = ix1 r := funext fun a => Fin.ext (by match a with | ⟨0, _⟩ => rfl)
  rw [e]
  exact wrap_nonneg _ _ (h _)

theorem word8 (x8 : (⟨S1048576, .i32⟩ : BufTy).Contents (Elt Ideal)) (h : ∀ i, 0 ≤ (x8 i).toInt) (r : Fin 1048576) :
    val_main_v12 (F := Ideal) x8 (ix2 r 0) = x8 (ix1 r) := by
  rw [val_main_v12_apply, val_main_v11_apply, val_main_v8_apply, val_main_v10_apply, val_main_v7_apply, val_main_v9_apply, val_main_c_1_apply, val_main_c_2_apply]
  have e : idx_main_v12 (ix2 r 0) = ix1 r := funext fun a => Fin.ext (by match a with | ⟨0, _⟩ => rfl)
  rw [e]
  exact wrap_nonneg _ _ (h _)

theorem word9 (x9 : (⟨S1048576, .i32⟩ : BufTy).Contents (Elt Ideal)) (h : ∀ i, 0 ≤ (x9 i).toInt) (r : Fin 1048576) :
    val_main_v19 (F := Ideal) x9 (ix2 r 0) = x9 (ix1 r) := by
  rw [val_main_v19_apply, val_main_v18_apply, val_main_v15_apply, val_main_v17_apply, val_main_v14_apply, val_main_v16_apply, val_main_c_3_apply, val_main_c_4_apply]
  have e : idx_main_v19 (ix2 r 0) = ix1 r := funext fun a => Fin.ext (by match a with | ⟨0, _⟩ => rfl)
  rw [e]
  exact wrap_nonneg _ _ (h _)

theorem word10 (x10 : (⟨S1048576, .i32⟩ : BufTy).Contents (Elt Ideal)) (h : ∀ i, 0 ≤ (x10 i).toInt) (r : Fin 1048576) :
    val_main_v26 (F := Ideal) x10 (ix2 r 0) = x10 (ix1 r) := by
  rw [val_main_v26_apply, val_main_v25_apply, val_main_v22_apply, val_main_v24_apply, val_main_v21_apply, val_main_v23_apply, val_main_c_5_apply, val_main_c_6_apply]
  have e : idx_main_v26 (ix2 r 0) = ix1 r := funext fun a => Fin.ext (by match a with | ⟨0, _⟩ => rfl)
  rw [e]
  exact wrap_nonneg _ _ (h _)

theorem word11 (x11 : (⟨S1048576, .i32⟩ : BufTy).Contents (Elt Ideal)) (h : ∀ i, 0 ≤ (x11 i).toInt) (r : Fin 1048576) :
    val_main_v33 (F := Ideal) x11 (ix2 r 0) = x11 (ix1 r) := by
  rw [val_main_v33_apply, val_main_v32_apply, val_main_v29_apply, val_main_v31_apply, val_main_v28_apply, val_main_v30_apply, val_main_c_7_apply, val_main_c_8_apply]
  have e : idx_main_v33 (ix2 r 0) = ix1 r := funext fun a => Fin.ext (by match a with | ⟨0, _⟩ => rfl)
  rw [e]
  exact wrap_nonneg _ _ (h _)

/-! ## The five gathered blocks -/

/-- A gather of whole rows whose start index at row `r` is the word `w` reads row `rowOf N w` of the table. -/
theorem gathered_row {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → EReal) (idx : IVec ⟨2, ![n, 1]⟩ 32) (r : Fin n) (f : Fin C) (hN : 0 < N)
    (w : BitVec 32) (hw : idx (ix2 r 0) = w) :
    Host.gather d x idx (ix2 r f) = x (ix2 (rowOf N hN w) f) := by
  subst hw
  exact gather_rows_apply d hoff hcoll hob hsim hivd x idx r f hN

theorem piece0 (x0 : (⟨S50x25, .f32⟩ : BufTy).Contents (Elt Ideal)) (x7 : (⟨S1048576, .i32⟩ : BufTy).Contents (Elt Ideal))
    (h : ∀ i, 0 ≤ (x7 i).toInt) (r : Fin 1048576) (f : Fin 25) :
    val_main_v6 (F := Ideal) x0 x7 (ix2 r f) = x0 (ix2 (rowOf 50 (by decide) (x7 (ix1 r))) f) := by
  unfold val_main_v6
  exact gathered_row gather_S50x25_S1048576x1_S1048576x25_1_0_n_n_0_1_125 rfl rfl rfl rfl rfl x0 (val_main_v5 (F := Ideal) x7) r f (by decide) _ (word7 x7 h r)

theorem piece1 (x1 : (⟨S2x25, .f32⟩ : BufTy).Contents (Elt Ideal)) (x8 : (⟨S1048576, .i32⟩ : BufTy).Contents (Elt Ideal))
    (h : ∀ i, 0 ≤ (x8 i).toInt) (r : Fin 1048576) (f : Fin 25) :
    val_main_v13 (F := Ideal) x1 x8 (ix2 r f) = x1 (ix2 (rowOf 2 (by decide) (x8 (ix1 r))) f) := by
  unfold val_main_v13
  exact gathered_row gather_S2x25_S1048576x1_S1048576x25_1_0_n_n_0_1_125 rfl rfl rfl rfl rfl x1 (val_main_v12 (F := Ideal) x8) r f (by decide) _ (word8 x8 h r)

theorem piece2 (x2 : (⟨S2x25, .f32⟩ : BufTy).Contents (Elt Ideal)) (x9 : (⟨S1048576, .i32⟩ : BufTy).Contents (Elt Ideal))
    (h : ∀ i, 0 ≤ (x9 i).toInt) (r : Fin 1048576) (f : Fin 25) :
    val_main_v20 (F := Ideal) x2 x9 (ix2 r f) = x2 (ix2 (rowOf 2 (by decide) (x9 (ix1 r))) f) := by
  unfold val_main_v20
  exact gathered_row gather_S2x25_S1048576x1_S1048576x25_1_0_n_n_0_1_125 rfl rfl rfl rfl rfl x2 (val_main_v19 (F := Ideal) x9) r f (by decide) _ (word9 x9 h r)

theorem piece3 (x3 : (⟨S3x25, .f32⟩ : BufTy).Contents (Elt Ideal)) (x10 : (⟨S1048576, .i32⟩ : BufTy).Contents (Elt Ideal))
    (h : ∀ i, 0 ≤ (x10 i).toInt) (r : Fin 1048576) (f : Fin 25) :
    val_main_v27 (F := Ideal) x3 x10 (ix2 r f) = x3 (ix2 (rowOf 3 (by decide) (x10 (ix1 r))) f) := by
  unfold val_main_v27
  exact gathered_row gather_S3x25_S1048576x1_S1048576x25_1_0_n_n_0_1_125 rfl rfl rfl rfl rfl x3 (val_main_v26 (F := Ideal) x10) r f (by decide) _ (word10 x10 h r)

theorem piece4 (x4 : (⟨S20x28, .f32⟩ : BufTy).Contents (Elt Ideal)) (x11 : (⟨S1048576, .i32⟩ : BufTy).Contents (Elt Ideal))
    (h : ∀ i, 0 ≤ (x11 i).toInt) (r : Fin 1048576) (f : Fin 28) :
    val_main_v34 (F := Ideal) x4 x11 (ix2 r f) = x4 (ix2 (rowOf 20 (by decide) (x11 (ix1 r))) f) := by
  unfold val_main_v34
  exact gathered_row gather_S20x28_S1048576x1_S1048576x28_1_0_n_n_0_1_128 rfl rfl rfl rfl rfl x4 (val_main_v33 (F := Ideal) x11) r f (by decide) _ (word11 x11 h r)

/-! ## The concatenation, block by block -/

/-- The concatenated array at column `q`, by the block whose span holds `q`. -/
theorem combined_apply (x0 : (⟨S50x25, .f32⟩ : BufTy).Contents (Elt Ideal)) (x1 x2 : (⟨S2x25, .f32⟩ : BufTy).Contents (Elt Ideal))
    (x3 : (⟨S3x25, .f32⟩ : BufTy).Contents (Elt Ideal)) (x4 : (⟨S20x28, .f32⟩ : BufTy).Contents (Elt Ideal))
    (x7 x8 x9 x10 x11 : (⟨S1048576, .i32⟩ : BufTy).Contents (Elt Ideal)) (r : Fin 1048576) (q : Fin 128) :
    val_main_v35 (F := Ideal) x0 x1 x2 x3 x4 x7 x8 x9 x10 x11 (ix2 r q)
      = if h0 : q.val < 25 then val_main_v6 (F := Ideal) x0 x7 (ix2 r ⟨q.val, h0⟩)
        else if h1 : q.val < 50 then val_main_v13 (F := Ideal) x1 x8 (ix2 r ⟨q.val - 25, by omega⟩)
        else if h2 : q.val < 75 then val_main_v20 (F := Ideal) x2 x9 (ix2 r ⟨q.val - 50, by omega⟩)
        else if h3 : q.val < 100 then val_main_v27 (F := Ideal) x3 x10 (ix2 r ⟨q.val - 75, by omega⟩)
        else val_main_v34 (F := Ideal) x4 x11 (ix2 r ⟨q.val - 100, by have := q.isLt; omega⟩) := by
  unfold val_main_v35
  exact concat5_apply (val_main_v6 (F := Ideal) x0 x7) (val_main_v13 (F := Ideal) x1 x8) (val_main_v20 (F := Ideal) x2 x9)
    (val_main_v27 (F := Ideal) x3 x10) (val_main_v34 (F := Ideal) x4 x11) _ r q

theorem combined0 (x0 : (⟨S50x25, .f32⟩ : BufTy).Contents (Elt Ideal)) (x1 x2 : (⟨S2x25, .f32⟩ : BufTy).Contents (Elt Ideal))
    (x3 : (⟨S3x25, .f32⟩ : BufTy).Contents (Elt Ideal)) (x4 : (⟨S20x28, .f32⟩ : BufTy).Contents (Elt Ideal))
    (x7 x8 x9 x10 x11 : (⟨S1048576, .i32⟩ : BufTy).Contents (Elt Ideal)) (r : Fin 1048576) (f : Fin 25) (h : 0 + f.val < 128) :
    val_main_v35 (F := Ideal) x0 x1 x2 x3 x4 x7 x8 x9 x10 x11 (ix2 r ⟨0 + f.val, h⟩) = val_main_v6 (F := Ideal) x0 x7 (ix2 r f) := by
  rw [combined_apply, dif_pos (show 0 + f.val < 25 by have := f.isLt; omega)]
  exact congrArg (fun a => val_main_v6 (F := Ideal) x0 x7 (ix2 r a)) (Fin.ext (by show 0 + f.val = f.val; omega))

theorem combined1 (x0 : (⟨S50x25, .f32⟩ : BufTy).Contents (Elt Ideal)) (x1 x2 : (⟨S2x25, .f32⟩ : BufTy).Contents (Elt Ideal))
    (x3 : (⟨S3x25, .f32⟩ : BufTy).Contents (Elt Ideal)) (x4 : (⟨S20x28, .f32⟩ : BufTy).Contents (Elt Ideal))
    (x7 x8 x9 x10 x11 : (⟨S1048576, .i32⟩ : BufTy).Contents (Elt Ideal)) (r : Fin 1048576) (f : Fin 25) (h : 25 + f.val < 128) :
    val_main_v35 (F := Ideal) x0 x1 x2 x3 x4 x7 x8 x9 x10 x11 (ix2 r ⟨25 + f.val, h⟩) = val_main_v13 (F := Ideal) x1 x8 (ix2 r f) := by
  rw [combined_apply, dif_neg (show ¬ 25 + f.val < 25 by omega), dif_pos (show 25 + f.val < 50 by have := f.isLt; omega)]
  exact congrArg (fun a => val_main_v13 (F := Ideal) x1 x8 (ix2 r a)) (Fin.ext (by show 25 + f.val - 25 = f.val; omega))

theorem combined2 (x0 : (⟨S50x25, .f32⟩ : BufTy).Contents (Elt Ideal)) (x1 x2 : (⟨S2x25, .f32⟩ : BufTy).Contents (Elt Ideal))
    (x3 : (⟨S3x25, .f32⟩ : BufTy).Contents (Elt Ideal)) (x4 : (⟨S20x28, .f32⟩ : BufTy).Contents (Elt Ideal))
    (x7 x8 x9 x10 x11 : (⟨S1048576, .i32⟩ : BufTy).Contents (Elt Ideal)) (r : Fin 1048576) (f : Fin 25) (h : 50 + f.val < 128) :
    val_main_v35 (F := Ideal) x0 x1 x2 x3 x4 x7 x8 x9 x10 x11 (ix2 r ⟨50 + f.val, h⟩) = val_main_v20 (F := Ideal) x2 x9 (ix2 r f) := by
  rw [combined_apply, dif_neg (show ¬ 50 + f.val < 25 by omega), dif_neg (show ¬ 50 + f.val < 50 by omega), dif_pos (show 50 + f.val < 75 by have := f.isLt; omega)]
  exact congrArg (fun a => val_main_v20 (F := Ideal) x2 x9 (ix2 r a)) (Fin.ext (by show 50 + f.val - 50 = f.val; omega))

theorem combined3 (x0 : (⟨S50x25, .f32⟩ : BufTy).Contents (Elt Ideal)) (x1 x2 : (⟨S2x25, .f32⟩ : BufTy).Contents (Elt Ideal))
    (x3 : (⟨S3x25, .f32⟩ : BufTy).Contents (Elt Ideal)) (x4 : (⟨S20x28, .f32⟩ : BufTy).Contents (Elt Ideal))
    (x7 x8 x9 x10 x11 : (⟨S1048576, .i32⟩ : BufTy).Contents (Elt Ideal)) (r : Fin 1048576) (f : Fin 25) (h : 75 + f.val < 128) :
    val_main_v35 (F := Ideal) x0 x1 x2 x3 x4 x7 x8 x9 x10 x11 (ix2 r ⟨75 + f.val, h⟩) = val_main_v27 (F := Ideal) x3 x10 (ix2 r f) := by
  rw [combined_apply, dif_neg (show ¬ 75 + f.val < 25 by omega), dif_neg (show ¬ 75 + f.val < 50 by omega), dif_neg (show ¬ 75 + f.val < 75 by omega), dif_pos (show 75 + f.val < 100 by have := f.isLt; omega)]
  exact congrArg (fun a => val_main_v27 (F := Ideal) x3 x10 (ix2 r a)) (Fin.ext (by show 75 + f.val - 75 = f.val; omega))

theorem combined4 (x0 : (⟨S50x25, .f32⟩ : BufTy).Contents (Elt Ideal)) (x1 x2 : (⟨S2x25, .f32⟩ : BufTy).Contents (Elt Ideal))
    (x3 : (⟨S3x25, .f32⟩ : BufTy).Contents (Elt Ideal)) (x4 : (⟨S20x28, .f32⟩ : BufTy).Contents (Elt Ideal))
    (x7 x8 x9 x10 x11 : (⟨S1048576, .i32⟩ : BufTy).Contents (Elt Ideal)) (r : Fin 1048576) (f : Fin 28) (h : 100 + f.val < 128) :
    val_main_v35 (F := Ideal) x0 x1 x2 x3 x4 x7 x8 x9 x10 x11 (ix2 r ⟨100 + f.val, h⟩) = val_main_v34 (F := Ideal) x4 x11 (ix2 r f) := by
  rw [combined_apply, dif_neg (show ¬ 100 + f.val < 25 by omega), dif_neg (show ¬ 100 + f.val < 50 by omega), dif_neg (show ¬ 100 + f.val < 75 by omega), dif_neg (show ¬ 100 + f.val < 100 by omega)]
  exact congrArg (fun a => val_main_v34 (F := Ideal) x4 x11 (ix2 r a)) (Fin.ext (by show 100 + f.val - 100 = f.val; omega))

/-! ## Each table's share of the one sum over the 128 columns -/

theorem share0 (x0 : (⟨S50x25, .f32⟩ : BufTy).Contents (Elt Ideal)) (x1 x2 : (⟨S2x25, .f32⟩ : BufTy).Contents (Elt Ideal))
    (x3 : (⟨S3x25, .f32⟩ : BufTy).Contents (Elt Ideal)) (x4 : (⟨S20x28, .f32⟩ : BufTy).Contents (Elt Ideal))
    (x7 x8 x9 x10 x11 : (⟨S1048576, .i32⟩ : BufTy).Contents (Elt Ideal)) (x5 : (⟨S128x128, .f32⟩ : BufTy).Contents (Elt Ideal))
    (h : ∀ i, 0 ≤ (x7 i).toInt) (r : Fin 1048576) (e : Fin 128) :
    ∑ f : Fin 25, val_main_v35 (F := Ideal) x0 x1 x2 x3 x4 x7 x8 x9 x10 x11 (ix2 r ⟨0 + f.val, by have := f.isLt; omega⟩)
        * x5 (ix2 e ⟨0 + f.val, by have := f.isLt; omega⟩)
      = term 50 25 (by decide) 0 (by decide) x0 x5 (x7 (ix1 r)) e := by
  unfold term
  refine Finset.sum_congr rfl fun f _ => ?_
  rw [combined0, piece0 x0 x7 h r f]

theorem share1 (x0 : (⟨S50x25, .f32⟩ : BufTy).Contents (Elt Ideal)) (x1 x2 : (⟨S2x25, .f32⟩ : BufTy).Contents (Elt Ideal))
    (x3 : (⟨S3x25, .f32⟩ : BufTy).Contents (Elt Ideal)) (x4 : (⟨S20x28, .f32⟩ : BufTy).Contents (Elt Ideal))
    (x7 x8 x9 x10 x11 : (⟨S1048576, .i32⟩ : BufTy).Contents (Elt Ideal)) (x5 : (⟨S128x128, .f32⟩ : BufTy).Contents (Elt Ideal))
    (h : ∀ i, 0 ≤ (x8 i).toInt) (r : Fin 1048576) (e : Fin 128) :
    ∑ f : Fin 25, val_main_v35 (F := Ideal) x0 x1 x2 x3 x4 x7 x8 x9 x10 x11 (ix2 r ⟨25 + f.val, by have := f.isLt; omega⟩)
        * x5 (ix2 e ⟨25 + f.val, by have := f.isLt; omega⟩)
      = term 2 25 (by decide) 25 (by decide) x1 x5 (x8 (ix1 r)) e := by
  unfold term
  refine Finset.sum_congr rfl fun f _ => ?_
  rw [combined1, piece1 x1 x8 h r f]

theorem share2 (x0 : (⟨S50x25, .f32⟩ : BufTy).Contents (Elt Ideal)) (x1 x2 : (⟨S2x25, .f32⟩ : BufTy).Contents (Elt Ideal))
    (x3 : (⟨S3x25, .f32⟩ : BufTy).Contents (Elt Ideal)) (x4 : (⟨S20x28, .f32⟩ : BufTy).Contents (Elt Ideal))
    (x7 x8 x9 x10 x11 : (⟨S1048576, .i32⟩ : BufTy).Contents (Elt Ideal)) (x5 : (⟨S128x128, .f32⟩ : BufTy).Contents (Elt Ideal))
    (h : ∀ i, 0 ≤ (x9 i).toInt) (r : Fin 1048576) (e : Fin 128) :
    ∑ f : Fin 25, val_main_v35 (F := Ideal) x0 x1 x2 x3 x4 x7 x8 x9 x10 x11 (ix2 r ⟨50 + f.val, by have := f.isLt; omega⟩)
        * x5 (ix2 e ⟨50 + f.val, by have := f.isLt; omega⟩)
      = term 2 25 (by decide) 50 (by decide) x2 x5 (x9 (ix1 r)) e := by
  unfold term
  refine Finset.sum_congr rfl fun f _ => ?_
  rw [combined2, piece2 x2 x9 h r f]

theorem share3 (x0 : (⟨S50x25, .f32⟩ : BufTy).Contents (Elt Ideal)) (x1 x2 : (⟨S2x25, .f32⟩ : BufTy).Contents (Elt Ideal))
    (x3 : (⟨S3x25, .f32⟩ : BufTy).Contents (Elt Ideal)) (x4 : (⟨S20x28, .f32⟩ : BufTy).Contents (Elt Ideal))
    (x7 x8 x9 x10 x11 : (⟨S1048576, .i32⟩ : BufTy).Contents (Elt Ideal)) (x5 : (⟨S128x128, .f32⟩ : BufTy).Contents (Elt Ideal))
    (h : ∀ i, 0 ≤ (x10 i).toInt) (r : Fin 1048576) (e : Fin 128) :
    ∑ f : Fin 25, val_main_v35 (F := Ideal) x0 x1 x2 x3 x4 x7 x8 x9 x10 x11 (ix2 r ⟨75 + f.val, by have := f.isLt; omega⟩)
        * x5 (ix2 e ⟨75 + f.val, by have := f.isLt; omega⟩)
      = term 3 25 (by decide) 75 (by decide) x3 x5 (x10 (ix1 r)) e := by
  unfold term
  refine Finset.sum_congr rfl fun f _ => ?_
  rw [combined3, piece3 x3 x10 h r f]

theorem share4 (x0 : (⟨S50x25, .f32⟩ : BufTy).Contents (Elt Ideal)) (x1 x2 : (⟨S2x25, .f32⟩ : BufTy).Contents (Elt Ideal))
    (x3 : (⟨S3x25, .f32⟩ : BufTy).Contents (Elt Ideal)) (x4 : (⟨S20x28, .f32⟩ : BufTy).Contents (Elt Ideal))
    (x7 x8 x9 x10 x11 : (⟨S1048576, .i32⟩ : BufTy).Contents (Elt Ideal)) (x5 : (⟨S128x128, .f32⟩ : BufTy).Contents (Elt Ideal))
    (h : ∀ i, 0 ≤ (x11 i).toInt) (r : Fin 1048576) (e : Fin 128) :
    ∑ f : Fin 28, val_main_v35 (F := Ideal) x0 x1 x2 x3 x4 x7 x8 x9 x10 x11 (ix2 r ⟨100 + f.val, by have := f.isLt; omega⟩)
        * x5 (ix2 e ⟨100 + f.val, by have := f.isLt; omega⟩)
      = term 20 28 (by decide) 100 (by decide) x4 x5 (x11 (ix1 r)) e := by
  unfold term
  refine Finset.sum_congr rfl fun f _ => ?_
  rw [combined4, piece4 x4 x11 h r f]

/-! ## The reference is the specification -/

/-- With every index word non-negative the reference's wrap of negative indices is the identity, each gather reads the row its
    word names (clamped), the concatenation lays the five rows side by side, and the product with `W` transposed is one sum over
    the 128 columns, cut at the tables' boundaries. -/
theorem ref_eq_G (x0 : (⟨S50x25, .f32⟩ : BufTy).Contents (Elt Ideal)) (x1 x2 : (⟨S2x25, .f32⟩ : BufTy).Contents (Elt Ideal))
    (x3 : (⟨S3x25, .f32⟩ : BufTy).Contents (Elt Ideal)) (x4 : (⟨S20x28, .f32⟩ : BufTy).Contents (Elt Ideal))
    (x5 : (⟨S128x128, .f32⟩ : BufTy).Contents (Elt Ideal)) (x6 : (⟨S128, .f32⟩ : BufTy).Contents (Elt Ideal))
    (x7 x8 x9 x10 x11 : (⟨S1048576, .i32⟩ : BufTy).Contents (Elt Ideal))
    (h7 : ∀ i, 0 ≤ (x7 i).toInt) (h8 : ∀ i, 0 ≤ (x8 i).toInt) (h9 : ∀ i, 0 ≤ (x9 i).toInt)
    (h10 : ∀ i, 0 ≤ (x10 i).toInt) (h11 : ∀ i, 0 ≤ (x11 i).toInt) :
    Cert.ReferenceIdeal.Read.val_main_v39 (F := Ideal) x0 x1 x2 x3 x4 x5 x6 x7 x8 x9 x10 x11
      = G x0 x1 x2 x3 x4 x5 x6 x7 x8 x9 x10 x11 := by
  funext i
  obtain ⟨r, e, rfl⟩ : ∃ r e, i = ix2 r e := ⟨i 0, i 1, eq_ix2 i⟩
  rw [val_main_v39_apply, val_main_v36_apply, val_main_v38_apply, val_main_v37_apply, Ideal.addf_def]
  have el : ∀ k : Fin 128, lidx_main_v36 (ix2 r e) k = ix2 r k := fun k =>
    funext fun a => Fin.ext (by match a with | ⟨0, _⟩ => rfl | ⟨1, _⟩ => rfl)
  have er : ∀ k : Fin 128, ridx_main_v36 (ix2 r e) k = ix2 e k := fun k =>
    funext fun a => Fin.ext (by match a with | ⟨0, _⟩ => rfl | ⟨1, _⟩ => rfl)
  have eb : idx_main_v37 (idx_main_v38 (ix2 r e)) = ix1 e :=
    funext fun a => Fin.ext (by match a with | ⟨0, _⟩ => rfl)
  rw [eb, Finset.sum_congr rfl fun k _ => by rw [el k, er k]]
  rw [sum_split5, share0 x0 x1 x2 x3 x4 x7 x8 x9 x10 x11 x5 h7 r e, share1 x0 x1 x2 x3 x4 x7 x8 x9 x10 x11 x5 h8 r e,
    share2 x0 x1 x2 x3 x4 x7 x8 x9 x10 x11 x5 h9 r e, share3 x0 x1 x2 x3 x4 x7 x8 x9 x10 x11 x5 h10 r e,
    share4 x0 x1 x2 x3 x4 x7 x8 x9 x10 x11 x5 h11 r e]
  rfl

end Cert.Embed

end
-- ==== Proof.PreDecode.lean ====
/-
  The precondition decoded: every index word is non-negative.
-/
import proofs.«411936_j9380208574576_3_alg».proof.Pre_finite_inputs
import proofs.«411936_j9380208574576_3_alg».proof.Proof.IndexWords
import Idealize.ShloMosaic.Lib.ReduceAll
import Idealize.ShloMosaic.Lib.ValueIdx

namespace Cert.Embed

open Idealize.ShloMosaic Idealize.ShloMosaic.ValueIdx Cert.Pre_finite_inputs

/-- The scalar shape has one index. -/
instance subsingleton_scalar_idx : Subsingleton S_.Idx := ⟨fun a b => funext fun d => d.elim0⟩

/-- One `all`: if the `and` of the tests `0 ≤ a i` over the whole array is 1, each word of the array is non-negative. -/
theorem nonneg_of_all [Cert.Pre_finite_inputs.Facts] (a : IVec S1048576 32) (init : IVec S_ 1)
    (e : Host.reduce IntOp.andi
          (cmpi .sge a (broadcastInDim S1048576 ![] Facts.bcast_S_S1048576 (constantI S_ 32 0#32)))
          init Facts.reducesTo_S1048576_S_d0 Facts.h_S_ ix0 = 1#1)
    (i : S1048576.Idx) : 0 ≤ (a i).toInt := by
  have hp := Host.reduce_andi_all _ init Facts.reducesTo_S1048576_S_d0 Facts.h_S_ ix0 e i
  exact nonneg_of_sge (a i) hp

/-- The precondition is a conjunction of twelve `all`s; its last five say, of each index array, that every word is `≥ 0`
    as a signed integer. -/
theorem nonneg_of_pre {F : FTy → Type} [FloatOps F] [Cert.Pre_finite_inputs.Facts]
    (a0 : FVec F S50x25 .f32) (a1 a2 : FVec F S2x25 .f32) (a3 : FVec F S3x25 .f32) (a4 : FVec F S20x28 .f32)
    (a5 : FVec F S128x128 .f32) (a6 : FVec F S128 .f32) (a7 a8 a9 a10 a11 : IVec S1048576 32)
    (h : Cert.Pre_finite_inputs.fn (F := F) a0 a1 a2 a3 a4 a5 a6 a7 a8 a9 a10 a11 = fun _ => 1#1) (i : S1048576.Idx) :
    0 ≤ (a7 i).toInt ∧ 0 ≤ (a8 i).toInt ∧ 0 ≤ (a9 i).toInt ∧ 0 ≤ (a10 i).toInt ∧ 0 ≤ (a11 i).toInt := by
  have e := congrFun h ix0
  simp only [fn, fn_part1, fn_part2, fn_part3, andi, IntOp.andi_eq_one] at e
  obtain ⟨⟨⟨⟨⟨_, e7⟩, e8⟩, e9⟩, e10⟩, e11⟩ := e
  exact ⟨nonneg_of_all a7 _ e7 i, nonneg_of_all a8 _ e8 i, nonneg_of_all a9 _ e9 i, nonneg_of_all a10 _ e10 i,
    nonneg_of_all a11 _ e11 i⟩

end Cert.Embed
-- ==== Proof.lean ====
/-
  A compound embedding lookup, fused: five small tables are gathered by five index arrays, the gathered rows concatenated and
  projected by `W` (plus a bias). The reference does exactly that; the kernel first multiplies each table by its column block of
  `W` transposed, stacks the five products into one [128 × 128] table, and then computes, per block of 8192 rows, a 0/1 matrix
  (one one per table and row, at the table's row offset plus the clipped index) times the stacked table, plus the bias.

  Over the extended reals both are, at row `r` and feature `e`,
      ∑ₜ ∑_f tableₜ[rowₜ(r), f] · W[e, offₜ + f] + b[e]
  (`Cert.Embed.G`): for the reference by cutting the one sum over the 128 concatenated columns at the tables' boundaries; for the
  kernel because a 0/1 row with five ones picks five rows of the stacked table. Only the commutative-monoid laws of `+`,
  `0 · x = 0` and `1 · x = x` are used, so the finiteness of the float inputs is never opened. The kernel CLIPS each index into its
  table; the reference WRAPS a negative index (`idx + n`) and then clamps: they agree where every index is `≥ 0` (above the range
  both clamp to the last row), which is the added precondition, and differ at `idx = −1`.

  The frames are the generated ones; the reference's frame is its generated run with the result dropped. The ideal pass
  rewrote nothing, so `preserves` is `True`.
-/
import proofs.«411936_j9380208574576_3_alg».proof.Defs
import proofs.«411936_j9380208574576_3_alg».proof.Proof.Gen.Kernel
import proofs.«411936_j9380208574576_3_alg».proof.Proof.Gen.Kernel.Skeleton
import proofs.«411936_j9380208574576_3_alg».proof.Proof.Gen.Kernel.Launch
import proofs.«411936_j9380208574576_3_alg».proof.Proof.Gen.Kernel.Points
import proofs.«411936_j9380208574576_3_alg».proof.Proof.Gen.Kernel.Frame
import proofs.«411936_j9380208574576_3_alg».proof.Proof.Gen.KernelIdeal
import proofs.«411936_j9380208574576_3_alg».proof.Proof.Gen.KernelIdeal.Skeleton
import proofs.«411936_j9380208574576_3_alg».proof.Proof.Gen.KernelIdeal.Launch
import proofs.«411936_j9380208574576_3_alg».proof.Proof.Gen.KernelIdeal.Points
import proofs.«411936_j9380208574576_3_alg».proof.Proof.Gen.KernelIdeal.Frame
import proofs.«411936_j9380208574576_3_alg».proof.Proof.Gen.ReferenceIdeal
import proofs.«411936_j9380208574576_3_alg».proof.Proof.Gen.Pre_finite_inputs
import proofs.«411936_j9380208574576_3_alg».proof.Proof.Gen.KernelIdeal.Value
import proofs.«411936_j9380208574576_3_alg».proof.Proof.Gen.ReferenceIdeal.Run
import proofs.«411936_j9380208574576_3_alg».proof.Proof.Gen.ReferenceIdeal.Read
import proofs.«411936_j9380208574576_3_alg».proof.Proof.KernelValue
import proofs.«411936_j9380208574576_3_alg».proof.Proof.RefValue
import proofs.«411936_j9380208574576_3_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end, from memories agreeing on the arguments, with the result at the specification of those arguments: the
    kernel by its blocks, the reference by its run read operation by operation, under the decoded precondition. -/
theorem algebraic : Cert.algebraic_KernelIdeal_ReferenceIdeal := by
  intro m ρ m' ρ' hpre hagree
  refine ⟨fun c => Cert.Embed.spec m c, Cert.Embed.kernel_run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v39_eq]
  obtain ⟨a0, a1, a2, a3, a4, a5, a6, a7, a8, a9, a10, a11⟩ := hagree c
  rw [a0, a1, a2, a3, a4, a5, a6, a7, a8, a9, a10, a11]
  have hp := fun i => Cert.Embed.nonneg_of_pre _ _ _ _ _ _ _ _ _ _ _ _ (hpre c) i
  exact Cert.Embed.ref_eq_G _ _ _ _ _ _ _ _ _ _ _ _ (fun i => (hp i).1) (fun i => (hp i).2.1) (fun i => (hp i).2.2.1)
    (fun i => (hp i).2.2.2.1) (fun i => (hp i).2.2.2.2)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
